-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x8 : Shape := ⟨3, ![32, 4096, 8]⟩
abbrev S8x8 : Shape := ⟨2, ![8, 8]⟩
abbrev S8 : Shape := ⟨1, ![8]⟩
abbrev S512x8 : Shape := ⟨2, ![512, 8]⟩
abbrev S512 : Shape := ⟨1, ![512]⟩
abbrev S8x512 : Shape := ⟨2, ![8, 512]⟩
abbrev S_ : Shape := ⟨0, ![]⟩

class Facts : Prop where
  bcast_S_S32x4096x8 : S_.BroadcastsInDim S32x4096x8 (![] : Fin 0 → Fin S32x4096x8.rank)
  reducesTo_S32x4096x8_S_d0_1_2 : S32x4096x8.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S512x8 : S_.BroadcastsInDim S512x8 (![] : Fin 0 → Fin S512x8.rank)
  reducesTo_S512x8_S_d0_1 : S512x8.ReducesTo [0, 1] S_
  bcast_S_S512 : S_.BroadcastsInDim S512 (![] : Fin 0 → Fin S512.rank)
  reducesTo_S512_S_d0 : S512.ReducesTo [0] S_
  bcast_S_S8x512 : S_.BroadcastsInDim S8x512 (![] : Fin 0 → Fin S8x512.rank)
  reducesTo_S8x512_S_d0_1 : S8x512.ReducesTo [0, 1] S_

variable [Facts]

def fn_part3 {F : FTy → Type} [FloatOps F] (main_arg11 : FVec F S8 .f32) (main_arg12 : FVec F S8 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg7 : FVec F S8x512 .f32) (main_arg8 : FVec F S8 .f32) (main_arg9 : FVec F S8 .f32) (main_arg10 : FVec F S8 .f32) (main_arg11 : FVec F S8 .f32) (main_arg12 : FVec F S8 .f32) (main_v33 : IVec S_ 1) : IVec S_ 1 :=
  let main_v34 : FVec F S8x512 .f32 := Host.absf main_arg7
  let main_cst_12 : FVec F S_ .f32 := constant S_ .f32 0x7F800000#32
  let main_v35 : FVec F S8x512 .f32 := broadcastInDim S8x512 ![] bcast_S_S8x512 main_cst_12
  let main_v36 : IVec S8x512 1 := cmpf .olt main_v34 main_v35
  let main_c_13 : IVec S_ 1 := constantI S_ 1 1#1
  let main_v37 : IVec S_ 1 := (fun x v => Host.reduce IntOp.andi x v reducesTo_S8x512_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_v48 main_v49 main_v50

def fn_part1 {F : FTy → Type} [FloatOps F] (main_arg4 : FVec F S8 .f32) (main_arg5 : FVec F S512x8 .f32) (main_arg6 : FVec F S512 .f32) (main_arg7 : FVec F S8x512 .f32) (main_arg8 : FVec F S8 .f32) (main_arg9 : FVec F S8 .f32) (main_arg10 : FVec F S8 .f32) (main_arg11 : FVec F S8 .f32) (main_arg12 : FVec F S8 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S512x8 .f32 := Host.absf main_arg5
  let main_cst_8 : FVec F S_ .f32 := constant S_ .f32 0x7F800000#32
  let main_v25 : FVec F S512x8 .f32 := broadcastInDim S512x8 ![] bcast_S_S512x8 main_cst_8
  let main_v26 : IVec S512x8 1 := cmpf .olt main_v24 main_v25
  let main_c_9 : IVec S_ 1 := constantI S_ 1 1#1
  let main_v27 : IVec S_ 1 := (fun x v => Host.reduce IntOp.andi x v reducesTo_S512x8_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x4096x8 .f32) (main_arg1 : FVec F S8x8 .f32) (main_arg2 : FVec F S8 .f32) (main_arg3 : FVec F S8x8 .f32) (main_arg4 : FVec F S8 .f32) (main_arg5 : FVec F S512x8 .f32) (main_arg6 : FVec F S512 .f32) (main_arg7 : FVec F S8x512 .f32) (main_arg8 : FVec F S8 .f32) (main_arg9 : FVec F S8 .f32) (main_arg10 : FVec F S8 .f32) (main_arg11 : FVec F S8 .f32) (main_arg12 : FVec F S8 .f32) : IVec S_ 1 :=
  let main_v0 : FVec F S32x4096x8 .f32 := Host.absf main_arg0
  let main_cst : FVec F S_ .f32 := constant S_ .f32 0x7F800000#32
  let main_v1 : FVec F S32x4096x8 .f32 := broadcastInDim S32x4096x8 ![] bcast_S_S32x4096x8 main_cst
  let main_v2 : IVec S32x4096x8 1 := cmpf .olt main_v0 main_v1
  let main_c : IVec S_ 1 := constantI S_ 1 1#1
  let main_v3 : IVec S_ 1 := (fun x v => Host.reduce IntOp.andi x v reducesTo_S32x4096x8_S_d0_1_2 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_arg9 main_arg10 main_arg11 main_arg12 main_v13 main_v16
-- ==== Kernel.lean ====
abbrev S32x4096x8 : Shape := ⟨3, ![32, 4096, 8]⟩
abbrev S8x8 : Shape := ⟨2, ![8, 8]⟩
abbrev S8 : Shape := ⟨1, ![8]⟩
abbrev S512x8 : Shape := ⟨2, ![512, 8]⟩
abbrev S512 : Shape := ⟨1, ![512]⟩
abbrev S8x512 : Shape := ⟨2, ![8, 512]⟩
abbrev S131072x8 : Shape := ⟨2, ![131072, 8]⟩
abbrev S1x8 : Shape := ⟨2, ![1, 8]⟩
abbrev S1x512 : Shape := ⟨2, ![1, 512]⟩
abbrev S2048x8 : Shape := ⟨2, ![2048, 8]⟩
abbrev S2048 : Shape := ⟨1, ![2048]⟩
abbrev S2048x1 : Shape := ⟨2, ![2048, 1]⟩
abbrev S2048x512 : Shape := ⟨2, ![2048, 512]⟩

abbrev nBuf : Space → Nat
  | .hbm => 28
  | .vmem => 16
  | .smem => 0
  | _ => 0

abbrev bufTy : (tb : Table) → Fin (tcTables nBuf tb) → BufTy
  | .hbm, ⟨0, _⟩ => ⟨S32x4096x8, .f32⟩
  | .hbm, ⟨1, _⟩ => ⟨S8x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S512x8, .f32⟩
  | .hbm, ⟨6, _⟩ => ⟨S512, .f32⟩
  | .hbm, ⟨7, _⟩ => ⟨S8x512, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S131072x8, .f32⟩
  | .hbm, ⟨14, _⟩ => ⟨S8x8, .f32⟩
  | .hbm, ⟨15, _⟩ => ⟨S8x8, .f32⟩
  | .hbm, ⟨16, _⟩ => ⟨S8x512, .f32⟩
  | .hbm, ⟨17, _⟩ => ⟨S512x8, .f32⟩
  | .hbm, ⟨18, _⟩ => ⟨S1x8, .f32⟩
  | .hbm, ⟨19, _⟩ => ⟨S1x8, .f32⟩
  | .hbm, ⟨20, _⟩ => ⟨S1x512, .f32⟩
  | .hbm, ⟨21, _⟩ => ⟨S1x8, .f32⟩
  | .hbm, ⟨22, _⟩ => ⟨S1x8, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S131072x8, .f32⟩
  | .hbm, ⟨27, _⟩ => ⟨S32x4096x8, .f32⟩
  | .local _ .vmem, ⟨0, _⟩ => ⟨S2048x8, .f32⟩
  | .local _ .vmem, ⟨1, _⟩ => ⟨S2048x8, .f32⟩
  | .local _ .vmem, ⟨2, _⟩ => ⟨S8x8, .f32⟩
  | .local _ .vmem, ⟨3, _⟩ => ⟨S1x8, .f32⟩
  | .local _ .vmem, ⟨4, _⟩ => ⟨S8x8, .f32⟩
  | .local _ .vmem, ⟨5, _⟩ => ⟨S1x8, .f32⟩
  | .local _ .vmem, ⟨6, _⟩ => ⟨S8x512, .f32⟩
  | .local _ .vmem, ⟨7, _⟩ => ⟨S1x512, .f32⟩
  | .local _ .vmem, ⟨8, _⟩ => ⟨S512x8, .f32⟩
  | .local _ .vmem, ⟨9, _⟩ => ⟨S1x8, .f32⟩
  | .local _ .vmem, ⟨10, _⟩ => ⟨S1x8, .f32⟩
  | .local _ .vmem, ⟨11, _⟩ => ⟨S1x8, .f32⟩
  | .local _ .vmem, ⟨12, _⟩ => ⟨S1x8, .f32⟩
  | .local _ .vmem, ⟨13, _⟩ => ⟨S1x8, .f32⟩
  | .local _ .vmem, ⟨14, _⟩ => ⟨S2048x8, .f32⟩
  | .local _ .vmem, ⟨15, _⟩ => ⟨S2048x8, .f32⟩
  | _, _ => ⟨S32x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S32x4096x8_S131072x8 : S32x4096x8.ShapeCasts S131072x8
  transposes_S8x8_S8x8_1_0 : S8x8.Transposes [1, 0] S8x8
  transposes_S512x8_S8x512_1_0 : S512x8.Transposes [1, 0] S8x512
  transposes_S8x512_S512x8_1_0 : S8x512.Transposes [1, 0] S512x8
  shapeCasts_S8_S1x8 : S8.ShapeCasts S1x8
  shapeCasts_S512_S1x512 : S512.ShapeCasts S1x512
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  bitsLt_bf16_f32 : FTy.bits .bf16 < FTy.bits .f32
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  reduces_S2048x8_S2048 : S2048x8.Reduces [1] S2048
  shapeCasts_S2048_S2048x1 : S2048.ShapeCasts S2048x1
  broadcasts_S2048x1_S2048x8 : S2048x1.Broadcasts S2048x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  shapeCasts_S131072x8_S32x4096x8 : S131072x8.ShapeCasts S32x4096x8
  dot_S2048x8_S8x8_S2048x8_1_0_0_1_n_n_wf : DotDims.WF S2048x8 S8x8 S2048x8 [1] [0] [0] [1] [] []
  dot_S2048x8_S8x512_S2048x512_1_0_0_1_n_n_wf : DotDims.WF S2048x8 S8x512 S2048x512 [1] [0] [0] [1] [] []
  dot_S2048x512_S512x8_S2048x8_1_0_0_1_n_n_wf : DotDims.WF S2048x512 S512x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S131072x8.size a
  hwx0_0 : ∀ i : grid0.Coords, EltTy.bits .f32 = 32 ∨ (Rect.block (s := S131072x8) S2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x8.size a ≤ S512x8.size a
  hwx0_7 : ∀ i : grid0.Coords, EltTy.bits .f32 = 32 ∨ (Rect.block (s := S512x8) S512x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x8.size a ≤ S1x8.size a
  hwx0_11 : ∀ i : grid0.Coords, EltTy.bits .f32 = 32 ∨ (Rect.block (s := S1x8) S1x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x8.size a ≤ S1x8.size a
  hwx0_12 : ∀ i : grid0.Coords, EltTy.bits .f32 = 32 ∨ (Rect.block (s := S1x8) S1x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x8.size a ≤ S131072x8.size a
  hwx0_13 : ∀ i : grid0.Coords, EltTy.bits .f32 = 32 ∨ (Rect.block (s := S131072x8) S2048x8.size (cc0_transform_13 i) (hinb0_13 i)).WholeWords (EltTy.packing .f32)

variable [Facts₀]

def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x8_S8x512_S2048x512_1_0_0_1_n_n : DotDims S2048x8 S8x512 S2048x512 where
  lhsContracting := [1]
  rhsContracting := [0]
  lhsNonContracting := [0]
  rhsNonContracting := [1]
  lhsBatch := []
  rhsBatch := []
  wf := dot_S2048x8_S8x512_S2048x512_1_0_0_1_n_n_wf
def dot_S2048x512_S512x8_S2048x8_1_0_0_1_n_n : DotDims S2048x512 S512x8 S2048x8 where
  lhsContracting := [1]
  rhsContracting := [0]
  lhsNonContracting := [0]
  rhsNonContracting := [1]
  lhsBatch := []
  rhsBatch := []
  wf := dot_S2048x512_S512x8_S2048x8_1_0_0_1_n_n_wf

abbrev win0_0 : Pipeline.Window sig grid0 :=
  Pipeline.Window.ofSpec (Memref.whole main_v0) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S2048x8.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32x4096x8 : Shape := ⟨3, ![32, 4096, 8]⟩
abbrev S8x8 : Shape := ⟨2, ![8, 8]⟩
abbrev S8 : Shape := ⟨1, ![8]⟩
abbrev S512x8 : Shape := ⟨2, ![512, 8]⟩
abbrev S512 : Shape := ⟨1, ![512]⟩
abbrev S8x512 : Shape := ⟨2, ![8, 512]⟩
abbrev S1x1x8 : Shape := ⟨3, ![1, 1, 8]⟩
abbrev S_ : Shape := ⟨0, ![]⟩
abbrev S32x4096 : Shape := ⟨2, ![32, 4096]⟩
abbrev S32x4096x1 : Shape := ⟨3, ![32, 4096, 1]⟩
abbrev S32x4096x512 : Shape := ⟨3, ![32, 4096, 512]⟩
abbrev S1x1x512 : Shape := ⟨3, ![1, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S32x4096x8, .f32⟩
  | .hbm, ⟨1, _⟩ => ⟨S8x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S512x8, .f32⟩
  | .hbm, ⟨6, _⟩ => ⟨S512, .f32⟩
  | .hbm, ⟨7, _⟩ => ⟨S8x512, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S32x4096x8, .f32⟩
  | .hbm, ⟨14, _⟩ => ⟨S1x1x8, .f32⟩
  | .hbm, ⟨15, _⟩ => ⟨S32x4096x8, .f32⟩
  | .hbm, ⟨16, _⟩ => ⟨S32x4096x8, .f32⟩
  | .hbm, ⟨17, _⟩ => ⟨S32x4096x8, .f32⟩
  | .hbm, ⟨18, _⟩ => ⟨S32x4096x8, .f32⟩
  | .hbm, ⟨19, _⟩ => ⟨S32x4096x8, .f32⟩
  | .hbm, ⟨20, _⟩ => ⟨S_, .f32⟩
  | .hbm, ⟨21, _⟩ => ⟨S32x4096, .f32⟩
  | .hbm, ⟨22, _⟩ => ⟨S32x4096x1, .f32⟩
  | .hbm, ⟨23, _⟩ => ⟨S_, .f32⟩
  | .hbm, ⟨24, _⟩ => ⟨S32x4096x1, .f32⟩
  | .hbm, ⟨25, _⟩ => ⟨S32x4096x1, .f32⟩
  | .hbm, ⟨26, _⟩ => ⟨S32x4096x8, .f32⟩
  | .hbm, ⟨27, _⟩ => ⟨S32x4096x8, .f32⟩
  | .hbm, ⟨28, _⟩ => ⟨S32x4096x8, .f32⟩
  | .hbm, ⟨29, _⟩ => ⟨S_, .f32⟩
  | .hbm, ⟨30, _⟩ => ⟨S32x4096, .f32⟩
  | .hbm, ⟨31, _⟩ => ⟨S32x4096x1, .f32⟩
  | .hbm, ⟨32, _⟩ => ⟨S_, .f32⟩
  | .hbm, ⟨33, _⟩ => ⟨S32x4096x1, .f32⟩
  | .hbm, ⟨34, _⟩ => ⟨S32x4096x1, .f32⟩
  | .hbm, ⟨35, _⟩ => ⟨S32x4096x8, .f32⟩
  | .hbm, ⟨36, _⟩ => ⟨S32x4096x8, .f32⟩
  | .hbm, ⟨37, _⟩ => ⟨S_, .f32⟩
  | .hbm, ⟨38, _⟩ => ⟨S32x4096x1, .f32⟩
  | .hbm, ⟨39, _⟩ => ⟨S32x4096x1, .f32⟩
  | .hbm, ⟨40, _⟩ => ⟨S32x4096x1, .f32⟩
  | .hbm, ⟨41, _⟩ => ⟨S32x4096x8, .f32⟩
  | .hbm, ⟨42, _⟩ => ⟨S32x4096x8, .f32⟩
  | .hbm, ⟨43, _⟩ => ⟨S1x1x8, .f32⟩
  | .hbm, ⟨44, _⟩ => ⟨S32x4096x8, .f32⟩
  | .hbm, ⟨45, _⟩ => ⟨S32x4096x8, .f32⟩
  | .hbm, ⟨46, _⟩ => ⟨S1x1x8, .f32⟩
  | .hbm, ⟨47, _⟩ => ⟨S32x4096x8, .f32⟩
  | .hbm, ⟨48, _⟩ => ⟨S32x4096x8, .f32⟩
  | .hbm, ⟨49, _⟩ => ⟨S32x4096x8, .f32⟩
  | .hbm, ⟨50, _⟩ => ⟨S8, .f32⟩
  | .hbm, ⟨51, _⟩ => ⟨S1x1x8, .f32⟩
  | .hbm, ⟨52, _⟩ => ⟨S32x4096x8, .f32⟩
  | .hbm, ⟨53, _⟩ => ⟨S32x4096x8, .f32⟩
  | .hbm, ⟨54, _⟩ => ⟨S32x4096x512, .f32⟩
  | .hbm, ⟨55, _⟩ => ⟨S1x1x512, .f32⟩
  | .hbm, ⟨56, _⟩ => ⟨S32x4096x512, .f32⟩
  | .hbm, ⟨57, _⟩ => ⟨S32x4096x512, .f32⟩
  | .hbm, ⟨58, _⟩ => ⟨S_, .f32⟩
  | .hbm, ⟨59, _⟩ => ⟨S32x4096x512, .f32⟩
  | .hbm, ⟨60, _⟩ => ⟨S32x4096x512, .f32⟩
  | .hbm, ⟨61, _⟩ => ⟨S32x4096x8, .f32⟩
  | .hbm, ⟨62, _⟩ => ⟨S1x1x8, .f32⟩
  | .hbm, ⟨63, _⟩ => ⟨S32x4096x8, .f32⟩
  | .hbm, ⟨64, _⟩ => ⟨S32x4096x8, .f32⟩
  | .hbm, ⟨65, _⟩ => ⟨S32x4096x8, .f32⟩
  | .hbm, ⟨66, _⟩ => ⟨S_, .f32⟩
  | .hbm, ⟨67, _⟩ => ⟨S32x4096, .f32⟩
  | .hbm, ⟨68, _⟩ => ⟨S32x4096x1, .f32⟩
  | .hbm, ⟨69, _⟩ => ⟨S_, .f32⟩
  | .hbm, ⟨70, _⟩ => ⟨S32x4096x1, .f32⟩
  | .hbm, ⟨71, _⟩ => ⟨S32x4096x1, .f32⟩
  | .hbm, ⟨72, _⟩ => ⟨S32x4096x8, .f32⟩
  | .hbm, ⟨73, _⟩ => ⟨S32x4096x8, .f32⟩
  | .hbm, ⟨74, _⟩ => ⟨S32x4096x8, .f32⟩
  | .hbm, ⟨75, _⟩ => ⟨S_, .f32⟩
  | .hbm, ⟨76, _⟩ => ⟨S32x4096, .f32⟩
  | .hbm, ⟨77, _⟩ => ⟨S32x4096x1, .f32⟩
  | .hbm, ⟨78, _⟩ => ⟨S_, .f32⟩
  | .hbm, ⟨79, _⟩ => ⟨S32x4096x1, .f32⟩
  | .hbm, ⟨80, _⟩ => ⟨S32x4096x1, .f32⟩
  | .hbm, ⟨81, _⟩ => ⟨S32x4096x8, .f32⟩
  | .hbm, ⟨82, _⟩ => ⟨S32x4096x8, .f32⟩
  | .hbm, ⟨83, _⟩ => ⟨S_, .f32⟩
  | .hbm, ⟨84, _⟩ => ⟨S32x4096x1, .f32⟩
  | .hbm, ⟨85, _⟩ => ⟨S32x4096x1, .f32⟩
  | .hbm, ⟨86, _⟩ => ⟨S32x4096x1, .f32⟩
  | .hbm, ⟨87, _⟩ => ⟨S32x4096x8, .f32⟩
  | .hbm, ⟨88, _⟩ => ⟨S32x4096x8, .f32⟩
  | .hbm, ⟨89, _⟩ => ⟨S1x1x8, .f32⟩
  | .hbm, ⟨90, _⟩ => ⟨S32x4096x8, .f32⟩
  | .hbm, ⟨91, _⟩ => ⟨S32x4096x8, .f32⟩
  | .hbm, ⟨92, _⟩ => ⟨S1x1x8, .f32⟩
  | .hbm, ⟨93, _⟩ => ⟨S32x4096x8, .f32⟩
  | .hbm, ⟨94, _⟩ => ⟨S32x4096x8, .f32⟩
  | _, _ => ⟨S32x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S32x4096x8_0_1_2 : S1x1x8.BroadcastsInDim S32x4096x8 (![0, 1, 2] : Fin 3 → Fin S32x4096x8.rank)
  reducesTo_S32x4096x8_S32x4096_d2 : S32x4096x8.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x8_0_1_2 : S32x4096x1.BroadcastsInDim S32x4096x8 (![0, 1, 2] : Fin 3 → Fin S32x4096x8.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S_S32x4096x512 : S_.BroadcastsInDim S32x4096x512 (![] : Fin 0 → Fin S32x4096x512.rank)
  dot_S32x4096x8_S8x8_S32x4096x8_2_1_01_0_n_n_wf : DotDims.WF S32x4096x8 S8x8 S32x4096x8 [2] [1] [0, 1] [0] [] []
  dot_S32x4096x8_S512x8_S32x4096x512_2_1_01_0_n_n_wf : DotDims.WF S32x4096x8 S512x8 S32x4096x512 [2] [1] [0, 1] [0] [] []
  dot_S32x4096x512_S8x512_S32x4096x8_2_1_01_0_n_n_wf : DotDims.WF S32x4096x512 S8x512 S32x4096x8 [2] [1] [0, 1] [0] [] []

variable [Facts₀]

def dot_S32x4096x8_S8x8_S32x4096x8_2_1_01_0_n_n : DotDims S32x4096x8 S8x8 S32x4096x8 where
  lhsContracting := [2]
  rhsContracting := [1]
  lhsNonContracting := [0, 1]
  rhsNonContracting := [0]
  lhsBatch := []
  rhsBatch := []
  wf := dot_S32x4096x8_S8x8_S32x4096x8_2_1_01_0_n_n_wf
def dot_S32x4096x8_S512x8_S32x4096x512_2_1_01_0_n_n : DotDims S32x4096x8 S512x8 S32x4096x512 where
  lhsContracting := [2]
  rhsContracting := [1]
  lhsNonContracting := [0, 1]
  rhsNonContracting := [0]
  lhsBatch := []
  rhsBatch := []
  wf := dot_S32x4096x8_S512x8_S32x4096x512_2_1_01_0_n_n_wf
def dot_S32x4096x512_S8x512_S32x4096x8_2_1_01_0_n_n : DotDims S32x4096x512 S8x512 S32x4096x8 where
  lhsContracting := [2]
  rhsContracting := [1]
  lhsNonContracting := [0, 1]
  rhsNonContracting := [0]
  lhsBatch := []
  rhsBatch := []
  wf := dot_S32x4096x512_S8x512_S32x4096x8_2_1_01_0_n_n_wf

class Facts : Prop extends Facts₀ where

variable [Facts]
-- ==== Proof.Token.lean ====
/-
  One token of the block, as a function of its row of eight numbers.

  The block acts on each token (a row `x` of eight extended reals) independently of every other token:

    attention   `a j = x j + ∑ f, cos ((∑ e, x e · Win f e) + θa f) · Wout j f`
    normalise   `h = LN (a; g1, β1)`
    feed-forward `p j = h j + ((∑ k, max ((∑ e, cos (h e) · cos (θf e) · W1 k e) + b1 k) 0 · W2 j k) + b2 j)`
    normalise   `out = LN (p; g2, β2)`

  where `LN (f; g, β) j = (f j − mean f) · rsqrt (var f + ε) · g j + β j`, the mean and the variance taken over the
  eight entries of the row and divided by the word of `8.0`. Every operation is the extended reals' own (the product,
  the sum, `max`, the interpreted cosine and reciprocal square root, the division `Ideal.div`); the three literals
  are kept as the words both programs print, so that no literal is ever evaluated.
-/
import Idealize.ShloMosaic.PureOps.Ideal
import Idealize.ShloMosaic.Lib.ValueIdx

noncomputable section

open scoped BigOperators

namespace Cert.Token

open Idealize.ShloMosaic Idealize.ShloMosaic.ValueIdx

/-- The divisor of a mean over eight entries: the word of `8.0`. -/
abbrev eight : EReal := Ideal.ofBits .f32 0x41000000#32
/-- The stabiliser added to a variance: the word nearest `1e-5`. -/
abbrev eps : EReal := Ideal.ofBits .f32 0x3727C5AC#32
/-- The floor of the rectifier: the zero word. -/
abbrev floor0 : EReal := Ideal.ofBits .f32 0x00000000#32

/-- The mean of a row of eight. -/
def mean (f : Fin 8 → EReal) : EReal := Ideal.div (∑ k : Fin 8, f k) eight

/-- A row minus its mean. -/
def centred (f : Fin 8 → EReal) (j : Fin 8) : EReal := f j - mean f

/-- The mean of the squares of the centred row. -/
def variance (f : Fin 8 → EReal) : EReal := Ideal.div (∑ k : Fin 8, centred f k * centred f k) eight

/-- The normalised row scaled by the gain, before the shift is added. -/
def scaled (f g : Fin 8 → EReal) (j : Fin 8) : EReal := centred f j * Ideal.rsqrt (variance f + eps) * g j

/-- Layer normalisation of a row of eight: gain `g`, shift `β`. -/
def layerNorm (f g β : Fin 8 → EReal) (j : Fin 8) : EReal := scaled f g j + β j

/-- The attention step with its residual: `win f e` and `wout j f` are the two projection matrices as the
    reference indexes them (output axis first). -/
def attend (x : Fin 8 → EReal) (win : Fin 8 → Fin 8 → EReal) (θa : Fin 8 → EReal) (wout : Fin 8 → Fin 8 → EReal)
    (j : Fin 8) : EReal :=
  x j + ∑ f : Fin 8, Ideal.cos ((∑ e : Fin 8, x e * win f e) + θa f) * wout j f

/-- The hidden activation of the feed-forward step at unit `k`, rectified. -/
def hidden (h θf : Fin 8 → EReal) (w1 : Fin 512 → Fin 8 → EReal) (b1 : Fin 512 → EReal) (k : Fin 512) : EReal :=
  max ((∑ e : Fin 8, Ideal.cos (h e) * Ideal.cos (θf e) * w1 k e) + b1 k) floor0

/-- The feed-forward step with its residual. -/
def feed (h θf : Fin 8 → EReal) (w1 : Fin 512 → Fin 8 → EReal) (b1 : Fin 512 → EReal) (w2 : Fin 8 → Fin 512 → EReal)
    (b2 : Fin 8 → EReal) (j : Fin 8) : EReal :=
  h j + ((∑ k : Fin 512, hidden h θf w1 b1 k * w2 j k) + b2 j)

/-- The whole block on one token. -/
def token (x : Fin 8 → EReal) (win : Fin 8 → Fin 8 → EReal) (θa : Fin 8 → EReal) (wout : Fin 8 → Fin 8 → EReal)
    (θf : Fin 8 → EReal) (w1 : Fin 512 → Fin 8 → EReal) (b1 : Fin 512 → EReal) (w2 : Fin 8 → Fin 512 → EReal)
    (b2 g1 β1 g2 β2 : Fin 8 → EReal) : Fin 8 → EReal :=
  layerNorm (feed (layerNorm (attend x win θa wout) g1 β1) θf w1 b1 w2 b2) g2 β2

/-! ## The block on the arrays the programs are given -/

abbrev S3 : Shape := ⟨3, ![32, 4096, 8]⟩
abbrev S88 : Shape := ⟨2, ![8, 8]⟩
abbrev S8v : Shape := ⟨1, ![8]⟩
abbrev S5128 : Shape := ⟨2, ![512, 8]⟩
abbrev S512v : Shape := ⟨1, ![512]⟩
abbrev S8512 : Shape := ⟨2, ![8, 512]⟩

/-- Token `(b, s)` of the input array, as a row. -/
abbrev rowAt (x : S3.Idx → EReal) (b : Fin 32) (s : Fin 4096) : Fin 8 → EReal := fun e => x (ix3 b s e)

/-- THE RESULT ARRAY: at `(b, s, j)`, entry `j` of the block applied to token `(b, s)`, the parameters read from
    the argument arrays as given. -/
def blockOut (x : S3.Idx → EReal) (Win : S88.Idx → EReal) (θa : S8v.Idx → EReal) (Wout : S88.Idx → EReal)
    (θf : S8v.Idx → EReal) (W1 : S5128.Idx → EReal) (b1 : S512v.Idx → EReal) (W2 : S8512.Idx → EReal)
    (b2 g1 β1 g2 β2 : S8v.Idx → EReal) : S3.Idx → EReal := fun i =>
  token (rowAt x (i 0) (i 1)) (fun f e => Win (ix2 f e)) (fun f => θa (ix1 f)) (fun j f => Wout (ix2 j f))
    (fun e => θf (ix1 e)) (fun k e => W1 (ix2 k e)) (fun k => b1 (ix1 k)) (fun j k => W2 (ix2 j k))
    (fun j => b2 (ix1 j)) (fun j => g1 (ix1 j)) (fun j => β1 (ix1 j)) (fun j => g2 (ix1 j)) (fun j => β2 (ix1 j)) (i 2)

end Cert.Token

end
-- ==== Proof.RefToken.lean ====
/-
  The reference program, read at one element, is the block of Cert.Token applied to that element's token.

  The reference acts on x : f32[32,4096,8] one token (b, s) at a time. Reading its operations at the index
  (b, s, j), outermost first, and following each operand index back to coordinates, gives in turn

    the attention row      a j = x j + ∑ f, cos ((∑ e, x e · Win f e) + θa f) · Wout j f,
    its normalisation      h   = LN (a; g1, β1),
    the feed-forward row   p j = h j + ((∑ k, max ((∑ e, cos (h e) · cos (θf e) · W1 k e) + b1 k) 0 · W2 j k) + b2 j),
    its normalisation      out = LN (p; g2, β2),

  each with the same operations in the same order as the definitions of Cert.Token, so that every step closes by
  unfolding. A mean or a variance is a sum over the row started from the zero word, which is the extended real 0;
  the divisor 8.0, the stabiliser 1e-5 and the rectifier's floor stay the words the program prints.
-/
import proofs.«171394_j65481071400382_1_alg».proof.Proof.Gen.ReferenceIdeal.Read
import proofs.«171394_j65481071400382_1_alg».proof.Proof.Token
import Idealize.ShloMosaic.PureOps.Ideal.Laws
import Idealize.ShloMosaic.Lib.ValueIdx
noncomputable section
open scoped BigOperators
namespace Cert.RefToken
open Idealize.ShloMosaic Idealize.ShloMosaic.ValueIdx Cert.ReferenceIdeal Cert.ReferenceIdeal.Read Cert.Token

/-- Two functions on the axes of a rank-1, rank-2 or rank-3 shape agree when they agree at each axis. -/
local macro "axes1" : tactic => `(tactic| exact funext fun a => by match a with | ⟨0, _⟩ => rfl)
local macro "axes2" : tactic => `(tactic| exact funext fun a => by match a with | ⟨0, _⟩ => rfl | ⟨1, _⟩ => rfl)
local macro "axes3" : tactic => `(tactic| exact funext fun a => by match a with | ⟨0, _⟩ => rfl | ⟨1, _⟩ => rfl | ⟨2, _⟩ => rfl)

section
variable (x0 : (⟨S32x4096x8, .f32⟩ : BufTy).Contents (Elt Ideal)) (x1 : (⟨S8x8, .f32⟩ : BufTy).Contents (Elt Ideal))
  (x2 : (⟨S8, .f32⟩ : BufTy).Contents (Elt Ideal)) (x3 : (⟨S8x8, .f32⟩ : BufTy).Contents (Elt Ideal))
  (x4 : (⟨S8, .f32⟩ : BufTy).Contents (Elt Ideal)) (x5 : (⟨S512x8, .f32⟩ : BufTy).Contents (Elt Ideal))
  (x6 : (⟨S512, .f32⟩ : BufTy).Contents (Elt Ideal)) (x7 : (⟨S8x512, .f32⟩ : BufTy).Contents (Elt Ideal))
  (x8 x9 x10 x11 x12 : (⟨S8, .f32⟩ : BufTy).Contents (Elt Ideal))
  (b : Fin 32) (s : Fin 4096)

/-! ## The attention row -/

/-- The attention row of token `(b, s)`. -/
private abbrev attRow : Fin 8 → EReal :=
  attend (rowAt x0 b s) (fun f e => x1 (ix2 f e)) (fun f => x2 (ix1 f)) (fun j f => x3 (ix2 j f))

/- The operand indices of the two contractions and of the phase's broadcast, at an index given by coordinates. -/
private theorem lidx_v0_at (f e : Fin 8) : lidx_main_v0 (ix3 b s f) e = ix3 b s e := by axes3
private theorem ridx_v0_at (f e : Fin 8) : ridx_main_v0 (ix3 b s f) e = ix2 f e := by axes2
private theorem idx_v2_at (f : Fin 8) : idx_main_v2 (ix3 b s f) = ix3 (0 : Fin 1) (0 : Fin 1) f := by axes3
private theorem idx_v1_at (f : Fin 8) : idx_main_v1 (ix3 (0 : Fin 1) (0 : Fin 1) f) = ix1 f := by axes1
private theorem lidx_v5_at (j f : Fin 8) : lidx_main_v5 (ix3 b s j) f = ix3 b s f := by axes3
private theorem ridx_v5_at (j f : Fin 8) : ridx_main_v5 (ix3 b s j) f = ix2 j f := by axes2

/-- The cosine feature `f` of the token: the projection of the row onto row `f` of the input matrix, shifted by the phase. -/
private theorem feature_eq (f : Fin 8) :
    val_main_v4 (F := Ideal) x0 x1 x2 (ix3 b s f)
      = Ideal.cos ((∑ e : Fin 8, x0 (ix3 b s e) * x1 (ix2 f e)) + x2 (ix1 f)) := by
  rw [val_main_v4_apply, val_main_v3_apply, val_main_v2_apply, val_main_v1_apply, val_main_v0_apply, idx_v2_at, idx_v1_at]
  simp only [lidx_v0_at, ridx_v0_at, Ideal.addf_def, Ideal.hostUnary_cos_def]

/-- The residual sum after the output projection is the attention row. -/
private theorem attend_eq (j : Fin 8) :
    val_main_v6 (F := Ideal) x0 x1 x2 x3 (ix3 b s j) = attRow x0 x1 x2 x3 b s j := by
  rw [val_main_v6_apply, val_main_v5_apply]
  simp only [lidx_v5_at, ridx_v5_at, feature_eq, Ideal.addf_def]
  rfl

/-! ## The first normalisation -/

/- The operand indices of the row sums and of the broadcasts back along the row. -/
private theorem idx_v7_at (k : Fin 8) : idx_main_v7 (ix2 b s) k = ix3 b s k := by axes3
private theorem idx_v8_at : idx_main_v8 (ix3 b s (0 : Fin 1)) = ix2 b s := by axes2
private theorem idx_v11_at (j : Fin 8) : idx_main_v11 (ix3 b s j) = ix3 b s (0 : Fin 1) := by axes3
private theorem idx_v14_at (k : Fin 8) : idx_main_v14 (ix2 b s) k = ix3 b s k := by axes3
private theorem idx_v15_at : idx_main_v15 (ix3 b s (0 : Fin 1)) = ix2 b s := by axes2
private theorem idx_v18_at (j : Fin 8) : idx_main_v18 (ix3 b s j) = ix3 b s (0 : Fin 1) := by axes3
private theorem idx_v23_at (j : Fin 8) : idx_main_v23 (ix3 b s j) = ix3 b s (0 : Fin 1) := by axes3
private theorem idx_v26_at (j : Fin 8) : idx_main_v26 (ix3 b s j) = ix3 (0 : Fin 1) (0 : Fin 1) j := by axes3
private theorem idx_v25_at (j : Fin 8) : idx_main_v25 (ix3 (0 : Fin 1) (0 : Fin 1) j) = ix1 j := by axes1
private theorem idx_v29_at (j : Fin 8) : idx_main_v29 (ix3 b s j) = ix3 (0 : Fin 1) (0 : Fin 1) j := by axes3
private theorem idx_v28_at (j : Fin 8) : idx_main_v28 (ix3 (0 : Fin 1) (0 : Fin 1) j) = ix1 j := by axes1

/-- The row sum of the attention row over the word of `8.0` is its mean. -/
private theorem mean1_eq :
    val_main_v10 (F := Ideal) x0 x1 x2 x3 (ix3 b s (0 : Fin 1)) = mean (attRow x0 x1 x2 x3 b s) := by
  rw [val_main_v10_apply, val_main_v9_apply, val_main_cst_0_apply, val_main_v8_apply, idx_v8_at, val_main_v7_apply,
    val_main_cst_apply]
  simp only [idx_v7_at, attend_eq, Ideal.hostDivf_def, Ideal.ofBits_def, Ideal.ofBits_zero_f32, zero_add]
  rfl

/-- The row sum of the squared centred attention row over the word of `8.0` is its variance. -/
private theorem var1_eq :
    val_main_v17 (F := Ideal) x0 x1 x2 x3 (ix3 b s (0 : Fin 1)) = variance (attRow x0 x1 x2 x3 b s) := by
  rw [val_main_v17_apply, val_main_v16_apply, val_main_cst_2_apply, val_main_v15_apply, idx_v15_at, val_main_v14_apply,
    val_main_cst_1_apply]
  simp only [idx_v14_at, val_main_v13_apply, val_main_v12_apply, val_main_v11_apply, idx_v11_at, mean1_eq, attend_eq,
    Ideal.hostDivf_def, Ideal.mulf_def, Ideal.subf_def, Ideal.ofBits_def, Ideal.ofBits_zero_f32, zero_add]
  rfl

/-- The first normalised row of token `(b, s)`. -/
private abbrev ln1Row : Fin 8 → EReal :=
  layerNorm (attRow x0 x1 x2 x3 b s) (fun j => x9 (ix1 j)) (fun j => x10 (ix1 j))

/-- The centred row times the reciprocal root, the gain and the shift is the first normalised row. -/
private theorem ln1_eq (j : Fin 8) :
    val_main_v30 (F := Ideal) x0 x1 x2 x3 x9 x10 (ix3 b s j) = ln1Row x0 x1 x2 x3 x9 x10 b s j := by
  simp only [val_main_v30_apply, val_main_v29_apply, val_main_v28_apply, val_main_v27_apply, val_main_v26_apply,
    val_main_v25_apply, val_main_v24_apply, val_main_v23_apply, val_main_v22_apply, val_main_v21_apply,
    val_main_v20_apply, val_main_cst_3_apply, val_main_v19_apply, val_main_v18_apply,
    idx_v29_at, idx_v28_at, idx_v26_at, idx_v25_at, idx_v23_at, idx_v18_at, var1_eq, mean1_eq, attend_eq,
    Ideal.addf_def, Ideal.mulf_def, Ideal.subf_def, Ideal.hostUnary_rsqrt_def, Ideal.ofBits_def]
  rfl

/-! ## The feed-forward row -/

/- The operand indices of the two contractions and of the broadcasts of the phase and of the two biases. -/
private theorem idx_v34_at (e : Fin 8) : idx_main_v34 (ix3 b s e) = ix3 (0 : Fin 1) (0 : Fin 1) e := by axes3
private theorem idx_v33_at (e : Fin 8) : idx_main_v33 (ix3 (0 : Fin 1) (0 : Fin 1) e) = ix1 e := by axes1
private theorem lidx_v36_at (k : Fin 512) (e : Fin 8) : lidx_main_v36 (ix3 b s k) e = ix3 b s e := by axes3
private theorem ridx_v36_at (k : Fin 512) (e : Fin 8) : ridx_main_v36 (ix3 b s k) e = ix2 k e := by axes2
private theorem idx_v38_at (k : Fin 512) : idx_main_v38 (ix3 b s k) = ix3 (0 : Fin 1) (0 : Fin 1) k := by axes3
private theorem idx_v37_at (k : Fin 512) : idx_main_v37 (ix3 (0 : Fin 1) (0 : Fin 1) k) = ix1 k := by axes1
private theorem lidx_v41_at (j : Fin 8) (k : Fin 512) : lidx_main_v41 (ix3 b s j) k = ix3 b s k := by axes3
private theorem ridx_v41_at (j : Fin 8) (k : Fin 512) : ridx_main_v41 (ix3 b s j) k = ix2 j k := by axes2
private theorem idx_v43_at (j : Fin 8) : idx_main_v43 (ix3 b s j) = ix3 (0 : Fin 1) (0 : Fin 1) j := by axes3
private theorem idx_v42_at (j : Fin 8) : idx_main_v42 (ix3 (0 : Fin 1) (0 : Fin 1) j) = ix1 j := by axes1

/-- The modulated feature `e` of the normalised row: its cosine times the cosine of the phase. -/
private theorem modulated_eq (e : Fin 8) :
    val_main_v35 (F := Ideal) x0 x1 x2 x3 x4 x9 x10 (ix3 b s e)
      = Ideal.cos (ln1Row x0 x1 x2 x3 x9 x10 b s e) * Ideal.cos (x4 (ix1 e)) := by
  simp only [val_main_v35_apply, val_main_v34_apply, val_main_v33_apply, val_main_v32_apply, val_main_v31_apply,
    idx_v34_at, idx_v33_at, ln1_eq, Ideal.mulf_def, Ideal.hostUnary_cos_def]

/-- The rectified hidden unit `k`: the maximum of the affine image of the modulated features and the zero word. -/
private theorem hidden_eq (k : Fin 512) :
    val_main_v40 (F := Ideal) x0 x1 x2 x3 x4 x5 x6 x9 x10 (ix3 b s k)
      = hidden (ln1Row x0 x1 x2 x3 x9 x10 b s) (fun e => x4 (ix1 e)) (fun k e => x5 (ix2 k e)) (fun k => x6 (ix1 k)) k := by
  rw [val_main_v40_apply, val_main_call0_v0_apply, val_main_call0_cst_apply, val_main_v39_apply, val_main_v38_apply,
    val_main_v37_apply, idx_v38_at, idx_v37_at, val_main_v36_apply]
  simp only [lidx_v36_at, ridx_v36_at, modulated_eq, Ideal.addf_def, Ideal.maximumf_def, Ideal.ofBits_def]
  rfl

/-- The feed-forward row of token `(b, s)`. -/
private abbrev ffRow : Fin 8 → EReal :=
  feed (ln1Row x0 x1 x2 x3 x9 x10 b s) (fun e => x4 (ix1 e)) (fun k e => x5 (ix2 k e)) (fun k => x6 (ix1 k))
    (fun j k => x7 (ix2 j k)) (fun j => x8 (ix1 j))

/-- The residual sum after the second projection and its bias is the feed-forward row. -/
private theorem feed_eq (j : Fin 8) :
    val_main_v45 (F := Ideal) x0 x1 x2 x3 x4 x5 x6 x7 x8 x9 x10 (ix3 b s j)
      = ffRow x0 x1 x2 x3 x4 x5 x6 x7 x8 x9 x10 b s j := by
  rw [val_main_v45_apply, val_main_v44_apply, val_main_v43_apply, val_main_v42_apply, idx_v43_at, idx_v42_at,
    val_main_v41_apply, ln1_eq]
  simp only [lidx_v41_at, ridx_v41_at, hidden_eq, Ideal.addf_def]
  rfl

/-! ## The second normalisation -/

/- The operand indices of the row sums and of the broadcasts back along the row. -/
private theorem idx_v46_at (k : Fin 8) : idx_main_v46 (ix2 b s) k = ix3 b s k := by axes3
private theorem idx_v47_at : idx_main_v47 (ix3 b s (0 : Fin 1)) = ix2 b s := by axes2
private theorem idx_v50_at (j : Fin 8) : idx_main_v50 (ix3 b s j) = ix3 b s (0 : Fin 1) := by axes3
private theorem idx_v53_at (k : Fin 8) : idx_main_v53 (ix2 b s) k = ix3 b s k := by axes3
private theorem idx_v54_at : idx_main_v54 (ix3 b s (0 : Fin 1)) = ix2 b s := by axes2
private theorem idx_v57_at (j : Fin 8) : idx_main_v57 (ix3 b s j) = ix3 b s (0 : Fin 1) := by axes3
private theorem idx_v62_at (j : Fin 8) : idx_main_v62 (ix3 b s j) = ix3 b s (0 : Fin 1) := by axes3
private theorem idx_v65_at (j : Fin 8) : idx_main_v65 (ix3 b s j) = ix3 (0 : Fin 1) (0 : Fin 1) j := by axes3
private theorem idx_v64_at (j : Fin 8) : idx_main_v64 (ix3 (0 : Fin 1) (0 : Fin 1) j) = ix1 j := by axes1
private theorem idx_v68_at (j : Fin 8) : idx_main_v68 (ix3 b s j) = ix3 (0 : Fin 1) (0 : Fin 1) j := by axes3
private theorem idx_v67_at (j : Fin 8) : idx_main_v67 (ix3 (0 : Fin 1) (0 : Fin 1) j) = ix1 j := by axes1

/-- The row sum of the feed-forward row over the word of `8.0` is its mean. -/
private theorem mean2_eq :
    val_main_v49 (F := Ideal) x0 x1 x2 x3 x4 x5 x6 x7 x8 x9 x10 (ix3 b s (0 : Fin 1))
      = mean (ffRow x0 x1 x2 x3 x4 x5 x6 x7 x8 x9 x10 b s) := by
  rw [val_main_v49_apply, val_main_v48_apply, val_main_cst_5_apply, val_main_v47_apply, idx_v47_at, val_main_v46_apply,
    val_main_cst_4_apply]
  simp only [idx_v46_at, feed_eq, Ideal.hostDivf_def, Ideal.ofBits_def, Ideal.ofBits_zero_f32, zero_add]
  rfl

/-- The row sum of the squared centred feed-forward row over the word of `8.0` is its variance. -/
private theorem var2_eq :
    val_main_v56 (F := Ideal) x0 x1 x2 x3 x4 x5 x6 x7 x8 x9 x10 (ix3 b s (0 : Fin 1))
      = variance (ffRow x0 x1 x2 x3 x4 x5 x6 x7 x8 x9 x10 b s) := by
  rw [val_main_v56_apply, val_main_v55_apply, val_main_cst_7_apply, val_main_v54_apply, idx_v54_at, val_main_v53_apply,
    val_main_cst_6_apply]
  simp only [idx_v53_at, val_main_v52_apply, val_main_v51_apply, val_main_v50_apply, idx_v50_at, mean2_eq, feed_eq,
    Ideal.hostDivf_def, Ideal.mulf_def, Ideal.subf_def, Ideal.ofBits_def, Ideal.ofBits_zero_f32, zero_add]
  rfl

/-- The centred row times the reciprocal root, the gain and the shift is the second normalised row: the token's result. -/
private theorem ln2_eq (j : Fin 8) :
    val_main_v69 (F := Ideal) x0 x1 x2 x3 x4 x5 x6 x7 x8 x9 x10 x11 x12 (ix3 b s j)
      = layerNorm (ffRow x0 x1 x2 x3 x4 x5 x6 x7 x8 x9 x10 b s) (fun j => x11 (ix1 j)) (fun j => x12 (ix1 j)) j := by
  simp only [val_main_v69_apply, val_main_v68_apply, val_main_v67_apply, val_main_v66_apply, val_main_v65_apply,
    val_main_v64_apply, val_main_v63_apply, val_main_v62_apply, val_main_v61_apply, val_main_v60_apply,
    val_main_v59_apply, val_main_cst_8_apply, val_main_v58_apply, val_main_v57_apply,
    idx_v68_at, idx_v67_at, idx_v65_at, idx_v64_at, idx_v62_at, idx_v57_at, var2_eq, mean2_eq, feed_eq,
    Ideal.addf_def, Ideal.mulf_def, Ideal.subf_def, Ideal.hostUnary_rsqrt_def, Ideal.ofBits_def]
  rfl

end

/-- THE REFERENCE'S RESULT is the block of `Cert.Token` on every token: at `(b, s, j)` the last stage is the second
    normalisation of the feed-forward row of token `(b, s)`, which is that token's result by definition. -/
theorem result_eq (x0 : (⟨S32x4096x8, .f32⟩ : BufTy).Contents (Elt Ideal)) (x1 : (⟨S8x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S512x8, .f32⟩ : BufTy).Contents (Elt Ideal)) (x6 : (⟨S512, .f32⟩ : BufTy).Contents (Elt Ideal)) (x7 : (⟨S8x512, .f32⟩ : BufTy).Contents (Elt Ideal)) (x8 x9 x10 x11 x12 : (⟨S8, .f32⟩ : BufTy).Contents (Elt Ideal)) :
    val_main_v69 (F := Ideal) x0 x1 x2 x3 x4 x5 x6 x7 x8 x9 x10 x11 x12 = blockOut x0 x1 x2 x3 x4 x5 x6 x7 x8 x9 x10 x11 x12 := by
  funext i
  obtain ⟨b, s, j, rfl⟩ : ∃ (b : Fin 32) (s : Fin 4096) (j : Fin 8), i = ix3 b s j := ⟨i 0, i 1, i 2, eq_ix3 i⟩
  exact ln2_eq x0 x1 x2 x3 x4 x5 x6 x7 x8 x9 x10 x11 x12 b s j

end Cert.RefToken
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.LibRowSum.lean ====
/-
  A reduction of a matrix along its second axis, read at a row.

  A `vector.multi_reduction <add>` of an `[a, b]` array over axis 1 into an `[a]` array holds, at `r`, the sum of row
  `r`: the index the reduction inserts at position `k` of the reduced axis under the kept index `r` is `(r, k)`. Stated
  with the coordinate constructors `ix1` / `ix2`, at any extents, over the extended reals.
-/
import Idealize.ShloMosaic.PureOps.Ideal.Laws
import Idealize.ShloMosaic.Lib.ValueIdx

noncomputable section

open scoped BigOperators

namespace Cert.Lib.RowSum

open Idealize.ShloMosaic Idealize.ShloMosaic.ValueIdx

/-- The sum over the second axis, at row `r`, is `∑ k, src (r, k)`. -/
theorem multiReduction_add_row_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  refine Finset.sum_congr rfl fun k _ => congrArg src (funext fun d => Fin.ext ?_)
  match d with
  | ⟨0, _⟩ => rfl
  | ⟨1, _⟩ => rfl

end Cert.Lib.RowSum

end
-- ==== Proof.KernelRow.lean ====
/-
  The kernel's arithmetic on one block of 2048 tokens, read entry by entry.

  The body's value is built from four vector-level pieces, each a fixed arrangement of the printed operations:
  the attention step with its residual (two products into zero accumulators around a cosine), the normalisation
  of a block's rows (a lane sum kept as a column, divided by the word of 8.0, subtracted; the same for the squares;
  the reciprocal square root spread back over the row; the gain), the feed-forward step with its residual, and the
  final shift. Each piece is restated here as a definition the printed payloads equal by unfolding, and read at
  entry `(p, j)` of the block as the corresponding function of row `p` alone (`Cert.Token`): a change of float
  format is the identity on the extended reals, a product into the zero accumulator is the sum over the contracted
  axis, a lane sum is the sum over the row, and a column or a row spread over the block reads its one entry.
-/
import proofs.«171394_j65481071400382_1_alg».proof.Proof.Gen.KernelIdeal.Skeleton
import proofs.«171394_j65481071400382_1_alg».proof.Proof.Token
import proofs.«171394_j65481071400382_1_alg».proof.Proof.LibKeepdims
import proofs.«171394_j65481071400382_1_alg».proof.Proof.LibPlainDot
import proofs.«171394_j65481071400382_1_alg».proof.Proof.LibRowSum
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelRow

open Idealize.ShloMosaic Idealize.ShloMosaic.ValueIdx Cert.KernelIdeal Cert.KernelIdeal.Gen Cert.Token
open Cert.Lib.Keepdims Cert.Lib.RowSum

/-- Row `p` of a block of eight-entry rows. -/
abbrev rowOf (v : FVec Ideal S2048x8 .f32) (p : Fin 2048) : Fin 8 → EReal := fun k => v (ix2 p k)

/-! ## A product into the zero accumulator, for operands of any float formats -/

theorem product_entry {M K N : Nat} {φ₁ φ₂ : FTy}
    (d : DotDims (⟨2, ![M, K]⟩ : Shape) (⟨2, ![K, N]⟩ : Shape) (⟨2, ![M, N]⟩ : Shape))
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal (⟨2, ![M, K]⟩ : Shape) φ₁) (r : FVec Ideal (⟨2, ![K, N]⟩ : Shape) φ₂)
    (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact Cert.LibPlainDot.plain_sum d hlc hrc hln hrn hlb hrb l r i j

/-! ## A lane sum of a block, as the kernel prints it -/

/-- The sum over the eight lanes, at row `r`: the accumulator is the zero word and its neutrality is witnessed by an
    equation between words. -/
theorem laneSum_entry (src : FVec Ideal S2048x8 .f32) (h : S2048x8.Reduces [1] S2048) (hφ : FKind.Formats .f32)
    (hacc : (0x00000000#32 : BitVec 32) = 0x00000000#32) (r : Fin 2048) :
    multiReduction .add [1] S2048 src 0x00000000#32 h hφ hacc (ix1 r) = ∑ k : Fin 8, src (ix2 r k) :=
  multiReduction_add_row_apply src 0x00000000#32 h hφ hacc r

/-! ## Normalising the rows of a block -/

/-- The column of row means. -/
def meanCol (u : FVec Ideal S2048x8 .f32) : FVec Ideal S2048x1 .f32 :=
  divf (shapeCast S2048x1 (multiReduction .add [1] S2048 u 0x00000000#32 reduces_S2048x8_S2048 (.inl rfl) rfl) shapeCasts_S2048_S2048x1)
    (broadcast S2048x1 (Scalar.ofBits .f32 0x41000000#32))

/-- The block minus its row means. -/
def centredBlk (u : FVec Ideal S2048x8 .f32) : FVec Ideal S2048x8 .f32 :=
  subf u (broadcastTo S2048x8 (meanCol u) broadcasts_S2048x1_S2048x8)

/-- The column of row variances. -/
def varCol (u : FVec Ideal S2048x8 .f32) : FVec Ideal S2048x1 .f32 :=
  divf (shapeCast S2048x1 (multiReduction .add [1] S2048 (mulf (centredBlk u) (centredBlk u)) 0x00000000#32 reduces_S2048x8_S2048 (.inl rfl) rfl) shapeCasts_S2048_S2048x1)
    (broadcast S2048x1 (Scalar.ofBits .f32 0x41000000#32))

/-- The normalised block times the gain row. -/
def scaledBlk (u : FVec Ideal S2048x8 .f32) (g : Vec Ideal S1x8 .f32) : FVec Ideal S2048x8 .f32 :=
  mulf (mulf (centredBlk u) (broadcastTo S2048x8 (rsqrt (addf (varCol u) (broadcast S2048x1 (Scalar.ofBits .f32 0x3727C5AC#32)))) broadcasts_S2048x1_S2048x8))
    (broadcastTo S2048x8 (shapeCast S1x8 g shapeCasts_S1x8_S1x8) broadcasts_S1x8_S2048x8)

theorem meanCol_entry (u : FVec Ideal S2048x8 .f32) (p : Fin 2048) :
    meanCol u (ix2 p (0 : Fin 1)) = mean (rowOf u p) := by
  unfold meanCol
  rw [divf_apply, broadcast_apply, shapeCast_a_a1_apply, laneSum_entry]
  rfl

theorem centredBlk_entry (u : FVec Ideal S2048x8 .f32) (p : Fin 2048) (j : Fin 8) :
    centredBlk u (ix2 p j) = centred (rowOf u p) j := by
  unfold centredBlk
  rw [subf_apply, broadcastTo_a1_ab_apply, meanCol_entry]
  rfl

theorem varCol_entry (u : FVec Ideal S2048x8 .f32) (p : Fin 2048) :
    varCol u (ix2 p (0 : Fin 1)) = variance (rowOf u p) := by
  unfold varCol
  rw [divf_apply, broadcast_apply, shapeCast_a_a1_apply, laneSum_entry]
  simp only [mulf_apply, centredBlk_entry]
  rfl

theorem scaledBlk_entry (u : FVec Ideal S2048x8 .f32) (g : Vec Ideal S1x8 .f32) (p : Fin 2048) (j : Fin 8) :
    scaledBlk u g (ix2 p j) = scaled (rowOf u p) (fun q => g (ix2 (0 : Fin 1) q)) j := by
  unfold scaledBlk
  rw [mulf_apply, mulf_apply, centredBlk_entry, broadcastTo_a1_ab_apply, broadcastTo_1b_ab_apply, shapeCast_self]
  show _ * FloatOps.rsqrt (addf (varCol u) (broadcast S2048x1 (Scalar.ofBits .f32 0x3727C5AC#32)) (ix2 p (0 : Fin 1))) * _ = _
  rw [addf_apply, broadcast_apply, varCol_entry]
  rfl

/-! ## The attention step on a block -/

/-- The block plus its attention output: `x` the block of tokens, `wi` and `wo` the two projection matrices as the
    kernel is handed them (contracted axis first), `ta` the row of phases. -/
def attendBlk (x : Vec Ideal S2048x8 .f32) (wi : Vec Ideal S8x8 .f32) (ta : Vec Ideal S1x8 .f32) (wo : Vec Ideal S8x8 .f32) :
    FVec Ideal S2048x8 .f32 :=
  addf (shapeCast S2048x8 x shapeCasts_S2048x8_S2048x8)
    (matmul dot_S2048x8_S8x8_S2048x8_1_0_0_1_n_n none
      (truncf .bf16 (cos (addf
        (matmul dot_S2048x8_S8x8_S2048x8_1_0_0_1_n_n none (truncf .bf16 (shapeCast S2048x8 x shapeCasts_S2048x8_S2048x8) bitsLt_bf16_f32)
          (truncf .bf16 (shapeCast S8x8 wi shapeCasts_S8x8_S8x8) bitsLt_bf16_f32) (constant S2048x8 .f32 0x00000000#32))
        (broadcastTo S2048x8 (shapeCast S1x8 ta shapeCasts_S1x8_S1x8) broadcasts_S1x8_S2048x8))) bitsLt_bf16_f32)
      (truncf .bf16 (shapeCast S8x8 wo shapeCasts_S8x8_S8x8) bitsLt_bf16_f32) (constant S2048x8 .f32 0x00000000#32))

theorem attendBlk_entry (x : Vec Ideal S2048x8 .f32) (wi : Vec Ideal S8x8 .f32) (ta : Vec Ideal S1x8 .f32) (wo : Vec Ideal S8x8 .f32)
    (p : Fin 2048) (j : Fin 8) :
    attendBlk x wi ta wo (ix2 p j)
      = attend (rowOf x p) (fun f e => wi (ix2 e f)) (fun f => ta (ix2 (0 : Fin 1) f)) (fun j f => wo (ix2 f j)) j := by
  unfold attendBlk attend
  rw [addf_apply, shapeCast_self,
    product_entry dot_S2048x8_S8x8_S2048x8_1_0_0_1_n_n rfl rfl rfl rfl rfl rfl]
  refine congrArg (x (ix2 p j) + ·) (Finset.sum_congr rfl fun f _ => ?_)
  rw [truncf_apply, truncf_apply, shapeCast_self]
  show FloatOps.cos (addf _ _ (ix2 p f)) * _ = _
  rw [addf_apply, broadcastTo_1b_ab_apply, shapeCast_self,
    product_entry dot_S2048x8_S8x8_S2048x8_1_0_0_1_n_n rfl rfl rfl rfl rfl rfl]
  simp only [truncf_apply, shapeCast_self]
  rfl

/-! ## The feed-forward step on a block -/

/-- The block plus its feed-forward output: `h` the normalised block, `tf` the row of phases, `w1` and `w2` the two
    weight matrices as the kernel is handed them (contracted axis first), `c1` and `c2` the two bias rows. -/
def feedBlk (h : FVec Ideal S2048x8 .f32) (tf : Vec Ideal S1x8 .f32) (w1 : Vec Ideal S8x512 .f32) (c1 : Vec Ideal S1x512 .f32)
    (w2 : Vec Ideal S512x8 .f32) (c2 : Vec Ideal S1x8 .f32) : FVec Ideal S2048x8 .f32 :=
  addf h (addf
    (matmul dot_S2048x512_S512x8_S2048x8_1_0_0_1_n_n none
      (truncf .bf16 (maximumf
        (addf
          (matmul dot_S2048x8_S8x512_S2048x512_1_0_0_1_n_n none
            (truncf .bf16 (mulf (cos h) (broadcastTo S2048x8 (cos (shapeCast S1x8 tf shapeCasts_S1x8_S1x8)) broadcasts_S1x8_S2048x8)) bitsLt_bf16_f32)
            (truncf .bf16 (shapeCast S8x512 w1 shapeCasts_S8x512_S8x512) bitsLt_bf16_f32) (constant S2048x512 .f32 0x00000000#32))
          (broadcastTo S2048x512 (shapeCast S1x512 c1 shapeCasts_S1x512_S1x512) broadcasts_S1x512_S2048x512))
        (broadcast S2048x512 (Scalar.ofBits .f32 0x00000000#32))) bitsLt_bf16_f32)
      (truncf .bf16 (shapeCast S512x8 w2 shapeCasts_S512x8_S512x8) bitsLt_bf16_f32) (constant S2048x8 .f32 0x00000000#32))
    (broadcastTo S2048x8 (shapeCast S1x8 c2 shapeCasts_S1x8_S1x8) broadcasts_S1x8_S2048x8))

theorem feedBlk_entry (h : FVec Ideal S2048x8 .f32) (tf : Vec Ideal S1x8 .f32) (w1 : Vec Ideal S8x512 .f32) (c1 : Vec Ideal S1x512 .f32)
    (w2 : Vec Ideal S512x8 .f32) (c2 : Vec Ideal S1x8 .f32) (p : Fin 2048) (j : Fin 8) :
    feedBlk h tf w1 c1 w2 c2 (ix2 p j)
      = feed (rowOf h p) (fun e => tf (ix2 (0 : Fin 1) e)) (fun k e => w1 (ix2 e k)) (fun k => c1 (ix2 (0 : Fin 1) k))
          (fun j k => w2 (ix2 k j)) (fun j => c2 (ix2 (0 : Fin 1) j)) j := by
  unfold feedBlk feed
  simp only [shapeCast_self]
  rw [addf_apply, addf_apply, broadcastTo_1b_ab_apply,
    product_entry dot_S2048x512_S512x8_S2048x8_1_0_0_1_n_n rfl rfl rfl rfl rfl rfl]
  refine congrArg (h (ix2 p j) + ·) (congrArg (· + c2 (ix2 (0 : Fin 1) j)) (Finset.sum_congr rfl fun k _ => ?_))
  rw [truncf_apply, truncf_apply, maximumf_apply, broadcast_apply, addf_apply, broadcastTo_1b_ab_apply,
    product_entry dot_S2048x8_S8x512_S2048x512_1_0_0_1_n_n rfl rfl rfl rfl rfl rfl]
  unfold Cert.Token.hidden
  refine congrArg (· * w2 (ix2 k j)) (congrArg (max · _) (congrArg (· + c1 (ix2 (0 : Fin 1) k)) (Finset.sum_congr rfl fun e _ => ?_)))
  rw [truncf_apply, truncf_apply, mulf_apply, broadcastTo_1b_ab_apply]
  rfl

/-! ## The printed payloads are these pieces -/

theorem pay2_eq (v0 : Vec Ideal S2048x8 .f32) (v3 : Vec Ideal S8x8 .f32) (v7 : Vec Ideal S1x8 .f32) (v13 : Vec Ideal S8x8 .f32)
    (v36 : Vec Ideal S1x8 .f32) : k0_pay2 v0 v3 v7 v13 v36 = scaledBlk (attendBlk v0 v3 v7 v13) v36 := rfl

theorem pay3_eq (v39 : FVec Ideal S2048x8 .f32) (v40 v45 : Vec Ideal S1x8 .f32) (v51 : Vec Ideal S8x512 .f32) (v55 : Vec Ideal S1x512 .f32)
    (v62 : Vec Ideal S512x8 .f32) (v66 : Vec Ideal S1x8 .f32) :
    k0_pay3 v39 v40 v45 v51 v55 v62 v66
      = feedBlk (addf v39 (broadcastTo S2048x8 (shapeCast S1x8 v40 shapeCasts_S1x8_S1x8) broadcasts_S1x8_S2048x8)) v45 v51 v55 v62 v66 := rfl

theorem pay4_eq (v39 : FVec Ideal S2048x8 .f32) (v40 v45 : Vec Ideal S1x8 .f32) (v51 : Vec Ideal S8x512 .f32) (v55 : Vec Ideal S1x512 .f32)
    (v62 : Vec Ideal S512x8 .f32) (v66 : Vec Ideal S1x8 .f32) :
    k0_pay4 v39 v40 v45 v51 v55 v62 v66 = meanCol (k0_pay3 v39 v40 v45 v51 v55 v62 v66) := rfl

theorem pay5_eq (v39 : FVec Ideal S2048x8 .f32) (v40 v45 : Vec Ideal S1x8 .f32) (v51 : Vec Ideal S8x512 .f32) (v55 : Vec Ideal S1x512 .f32)
    (v62 : Vec Ideal S512x8 .f32) (v66 : Vec Ideal S1x8 .f32) :
    k0_pay5 v39 v40 v45 v51 v55 v62 v66 = varCol (k0_pay3 v39 v40 v45 v51 v55 v62 v66) := rfl

theorem pay6_eq (v39 : FVec Ideal S2048x8 .f32) (v40 v45 : Vec Ideal S1x8 .f32) (v51 : Vec Ideal S8x512 .f32) (v55 : Vec Ideal S1x512 .f32)
    (v62 : Vec Ideal S512x8 .f32) (v66 : Vec Ideal S1x8 .f32) :
    k0_pay6 v39 v40 v45 v51 v55 v62 v66
      = broadcastTo S2048x8 (meanCol (k0_pay3 v39 v40 v45 v51 v55 v62 v66)) broadcasts_S2048x1_S2048x8 := rfl

/-- The stored value, from the second normalisation's three carried pieces: the normalised rows times the gain, plus the shift. -/
theorem pay1_eq (u : FVec Ideal S2048x8 .f32) (v89 v93 : Vec Ideal S1x8 .f32) :
    k0_pay1 u (varCol u) (broadcastTo S2048x8 (meanCol u) broadcasts_S2048x1_S2048x8) v89 v93
      = addf (scaledBlk u v89) (broadcastTo S2048x8 (shapeCast S1x8 v93 shapeCasts_S1x8_S1x8) broadcasts_S1x8_S2048x8) := rfl

/-! ## The block's stored value, entry by entry -/

/-- WHAT THE BODY STORES at entry `(p, j)` of its output block is entry `j` of the whole block function applied to row
    `p` of the token block, the parameters read from the parameter blocks as the kernel is handed them. -/
theorem stored_entry (x0 : Vec Ideal S2048x8 .f32) (x1 : Vec Ideal S8x8 .f32) (x2 : Vec Ideal S1x8 .f32) (x3 : Vec Ideal S8x8 .f32)
    (x4 : Vec Ideal S1x8 .f32) (x5 : Vec Ideal S8x512 .f32) (x6 : Vec Ideal S1x512 .f32) (x7 : Vec Ideal S512x8 .f32)
    (x8 x9 x10 x11 x12 : Vec Ideal S1x8 .f32) (p : Fin 2048) (j : Fin 8) :
    k0_pay1 (k0_pay3 (k0_pay2 x0 x1 x2 x3 x9) x10 x4 x5 x6 x7 x8) (k0_pay5 (k0_pay2 x0 x1 x2 x3 x9) x10 x4 x5 x6 x7 x8)
        (k0_pay6 (k0_pay2 x0 x1 x2 x3 x9) x10 x4 x5 x6 x7 x8) x11 x12 (ix2 p j)
      = token (fun k => x0 (ix2 p k)) (fun f e => x1 (ix2 e f)) (fun f => x2 (ix2 (0 : Fin 1) f)) (fun j f => x3 (ix2 f j))
          (fun e => x4 (ix2 (0 : Fin 1) e)) (fun k e => x5 (ix2 e k)) (fun k => x6 (ix2 (0 : Fin 1) k)) (fun j k => x7 (ix2 k j))
          (fun j => x8 (ix2 (0 : Fin 1) j)) (fun j => x9 (ix2 (0 : Fin 1) j)) (fun j => x10 (ix2 (0 : Fin 1) j))
          (fun j => x11 (ix2 (0 : Fin 1) j)) (fun j => x12 (ix2 (0 : Fin 1) j)) j := by
  rw [pay5_eq, pay6_eq, pay1_eq, pay3_eq, pay2_eq]
  simp only [shapeCast_self]
  rw [addf_apply, scaledBlk_entry, broadcastTo_1b_ab_apply]
  unfold token layerNorm
  refine congrArg (· + x12 (ix2 (0 : Fin 1) j)) (congrArg (fun r => scaled r _ j) (funext fun q => ?_))
  show feedBlk _ _ _ _ _ _ (ix2 p q) = _
  rw [feedBlk_entry]
  refine congrArg (fun r => feed r _ _ _ _ _ q) (funext fun e => ?_)
  show addf _ _ (ix2 p e) = _
  rw [addf_apply, scaledBlk_entry, broadcastTo_1b_ab_apply]
  refine congrArg (· + x10 (ix2 (0 : Fin 1) e)) (congrArg (fun r => scaled r _ e) (funext fun f => ?_))
  exact attendBlk_entry x0 x1 x2 x3 p f

end Cert.KernelRow

end
-- ==== Proof.KernelBlocks.lean ====
/-
  From the blocks the grid points write back to the whole result array.

  Grid point `t` of the 64 works on tokens `2048 t … 2048 t + 2047`: its input block of window 0 is those rows of the
  token array, the twelve parameter windows are whole arrays fetched once, and what it writes back is the block
  function applied row by row. So every block written back is a block of ONE function of the array index — row `n`
  of the result is the block function of row `n` of the token array — and the 64 blocks tile the `131072 × 8`
  array: after the run the array holds that function.
-/
import proofs.«171394_j65481071400382_1_alg».proof.Proof.Gen.KernelIdeal.Frame
import proofs.«171394_j65481071400382_1_alg».proof.Proof.KernelRow
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelBlocks

open Cert.KernelIdeal Cert.KernelIdeal.Gen Cert.Token Cert.KernelRow

variable (m : (ℓ : Loc nD τ sig) → Buf (Elt Ideal) ℓ) (ρ : Dev nD → PrngReg)

theorem hz : (![0, 0] : Fin 2 → Nat) = fun _ => 0 := funext fun a => by fin_cases a <;> rfl

/-- Row `n` of the result, entry `j`: the block function of row `n` of the token array as the region finds it, the
    parameters read from the parameter arrays as the region finds them. -/
def rowResult (c : Dev nD) (n : Fin 131072) (j : Fin 8) : EReal :=
  token (fun e => (V m c main_v0 : S131072x8.Idx → EReal) (ix2 n e))
    (fun f e => (V m c main_v1 : S8x8.Idx → EReal) (ix2 e f)) (fun f => (V m c main_v5 : S1x8.Idx → EReal) (ix2 (0 : Fin 1) f))
    (fun j f => (V m c main_v2 : S8x8.Idx → EReal) (ix2 f j)) (fun e => (V m c main_v6 : S1x8.Idx → EReal) (ix2 (0 : Fin 1) e))
    (fun k e => (V m c main_v3 : S8x512.Idx → EReal) (ix2 e k)) (fun k => (V m c main_v7 : S1x512.Idx → EReal) (ix2 (0 : Fin 1) k))
    (fun j k => (V m c main_v4 : S512x8.Idx → EReal) (ix2 k j)) (fun j => (V m c main_v8 : S1x8.Idx → EReal) (ix2 (0 : Fin 1) j))
    (fun j => (V m c main_v9 : S1x8.Idx → EReal) (ix2 (0 : Fin 1) j)) (fun j => (V m c main_v10 : S1x8.Idx → EReal) (ix2 (0 : Fin 1) j))
    (fun j => (V m c main_v11 : S1x8.Idx → EReal) (ix2 (0 : Fin 1) j)) (fun j => (V m c main_v12 : S1x8.Idx → EReal) (ix2 (0 : Fin 1) j)) j

/-- The result array as one function of its index. -/
def resultArr (c : Dev nD) : S131072x8.Idx → EReal := fun y =>
  rowResult m c ⟨(y 0).val, (y 0).isLt⟩ ⟨(y 1).val, (y 1).isLt⟩

/-- The printed index maps over the grid: the token window and the result window are at block `(t, 0)`. -/
theorem idxTok : ∀ t : Fin cfg0.N, win0_0.index t (0 : Fin 2) = t.val ∧ win0_0.index t (1 : Fin 2) = 0 :=
  (by decide +kernel : ∀ t : Fin grid0.N, _)
theorem idxOut : ∀ t : Fin cfg0.N, win0_13.index t (0 : Fin 2) = t.val ∧ win0_13.index t (1 : Fin 2) = 0 :=
  (by decide +kernel : ∀ t : Fin grid0.N, _)
/-- Every parameter window is at block `(0, 0)` at every point. -/
theorem idxP1 : ∀ t : Fin cfg0.N, win0_1.index t (0 : Fin 2) = 0 ∧ win0_1.index t (1 : Fin 2) = 0 :=
  (by decide +kernel : ∀ t : Fin grid0.N, _)
theorem idxP2 : ∀ t : Fin cfg0.N, win0_2.index t (0 : Fin 2) = 0 ∧ win0_2.index t (1 : Fin 2) = 0 :=
  (by decide +kernel : ∀ t : Fin grid0.N, _)
theorem idxP3 : ∀ t : Fin cfg0.N, win0_3.index t (0 : Fin 2) = 0 ∧ win0_3.index t (1 : Fin 2) = 0 :=
  (by decide +kernel : ∀ t : Fin grid0.N, _)
theorem idxP4 : ∀ t : Fin cfg0.N, win0_4.index t (0 : Fin 2) = 0 ∧ win0_4.index t (1 : Fin 2) = 0 :=
  (by decide +kernel : ∀ t : Fin grid0.N, _)
theorem idxP5 : ∀ t : Fin cfg0.N, win0_5.index t (0 : Fin 2) = 0 ∧ win0_5.index t (1 : Fin 2) = 0 :=
  (by decide +kernel : ∀ t : Fin grid0.N, _)
theorem idxP6 : ∀ t : Fin cfg0.N, win0_6.index t (0 : Fin 2) = 0 ∧ win0_6.index t (1 : Fin 2) = 0 :=
  (by decide +kernel : ∀ t : Fin grid0.N, _)
theorem idxP7 : ∀ t : Fin cfg0.N, win0_7.index t (0 : Fin 2) = 0 ∧ win0_7.index t (1 : Fin 2) = 0 :=
  (by decide +kernel : ∀ t : Fin grid0.N, _)
theorem idxP8 : ∀ t : Fin cfg0.N, win0_8.index t (0 : Fin 2) = 0 ∧ win0_8.index t (1 : Fin 2) = 0 :=
  (by decide +kernel : ∀ t : Fin grid0.N, _)
theorem idxP9 : ∀ t : Fin cfg0.N, win0_9.index t (0 : Fin 2) = 0 ∧ win0_9.index t (1 : Fin 2) = 0 :=
  (by decide +kernel : ∀ t : Fin grid0.N, _)
theorem idxP10 : ∀ t : Fin cfg0.N, win0_10.index t (0 : Fin 2) = 0 ∧ win0_10.index t (1 : Fin 2) = 0 :=
  (by decide +kernel : ∀ t : Fin grid0.N, _)
theorem idxP11 : ∀ t : Fin cfg0.N, win0_11.index t (0 : Fin 2) = 0 ∧ win0_11.index t (1 : Fin 2) = 0 :=
  (by decide +kernel : ∀ t : Fin grid0.N, _)
theorem idxP12 : ∀ t : Fin cfg0.N, win0_12.index t (0 : Fin 2) = 0 ∧ win0_12.index t (1 : Fin 2) = 0 :=
  (by decide +kernel : ∀ t : Fin grid0.N, _)

/-- The token window's block at point `t`, entry `(p, e)`, is the token array at row `2048 t + p`. -/
theorem tokenBlk_apply (c : Dev nD) (t : Fin cfg0.N) (p : Fin 2048) (e : Fin 8) (n : Fin 131072) (hn : n.val = t.val * 2048 + p.val) :
    (iblk m c 0 t : Vec Ideal S2048x8 .f32) (ix2 p e) = (V m c main_v0 : S131072x8.Idx → EReal) (ix2 n e) := by
  have hi := idxTok t
  unfold iblk
  rw [View.read_apply]
  show (V m c main_v0 : S131072x8.Idx → EReal) _ = _
  congr 1
  funext a
  apply Fin.ext
  match a with
  | ⟨0, _⟩ => show win0_0.index t 0 * 2048 + 1 * p.val = n.val; rw [hi.1, hn]; omega
  | ⟨1, _⟩ => show win0_0.index t 1 * 8 + 1 * e.val = e.val; rw [hi.2]; omega

/-! ## A parameter window's block is its whole array -/

theorem paramBlk1_apply (c : Dev nD) (t : Fin cfg0.N) (i : Fin 8) (j : Fin 8) :
    (iblk m c 1 t : Vec Ideal S8x8 .f32) (ix2 i j) = (V m c main_v1 : S8x8.Idx → EReal) (ix2 i j) := by
  have hi := idxP1 t
  unfold iblk
  rw [View.read_apply]
  show (V m c main_v1 : S8x8.Idx → EReal) _ = _
  congr 1
  funext a
  apply Fin.ext
  match a with
  | ⟨0, _⟩ => show win0_1.index t 0 * 8 + 1 * i.val = i.val; rw [hi.1]; omega
  | ⟨1, _⟩ => show win0_1.index t 1 * 8 + 1 * j.val = j.val; rw [hi.2]; omega

theorem paramBlk2_apply (c : Dev nD) (t : Fin cfg0.N) (i : Fin 1) (j : Fin 8) :
    (iblk m c 2 t : Vec Ideal S1x8 .f32) (ix2 i j) = (V m c main_v5 : S1x8.Idx → EReal) (ix2 i j) := by
  have hi := idxP2 t
  unfold iblk
  rw [View.read_apply]
  show (V m c main_v5 : S1x8.Idx → EReal) _ = _
  congr 1
  funext a
  apply Fin.ext
  match a with
  | ⟨0, _⟩ => show win0_2.index t 0 * 1 + 1 * i.val = i.val; rw [hi.1]; omega
  | ⟨1, _⟩ => show win0_2.index t 1 * 8 + 1 * j.val = j.val; rw [hi.2]; omega

theorem paramBlk3_apply (c : Dev nD) (t : Fin cfg0.N) (i : Fin 8) (j : Fin 8) :
    (iblk m c 3 t : Vec Ideal S8x8 .f32) (ix2 i j) = (V m c main_v2 : S8x8.Idx → EReal) (ix2 i j) := by
  have hi := idxP3 t
  unfold iblk
  rw [View.read_apply]
  show (V m c main_v2 : S8x8.Idx → EReal) _ = _
  congr 1
  funext a
  apply Fin.ext
  match a with
  | ⟨0, _⟩ => show win0_3.index t 0 * 8 + 1 * i.val = i.val; rw [hi.1]; omega
  | ⟨1, _⟩ => show win0_3.index t 1 * 8 + 1 * j.val = j.val; rw [hi.2]; omega

theorem paramBlk4_apply (c : Dev nD) (t : Fin cfg0.N) (i : Fin 1) (j : Fin 8) :
    (iblk m c 4 t : Vec Ideal S1x8 .f32) (ix2 i j) = (V m c main_v6 : S1x8.Idx → EReal) (ix2 i j) := by
  have hi := idxP4 t
  unfold iblk
  rw [View.read_apply]
  show (V m c main_v6 : S1x8.Idx → EReal) _ = _
  congr 1
  funext a
  apply Fin.ext
  match a with
  | ⟨0, _⟩ => show win0_4.index t 0 * 1 + 1 * i.val = i.val; rw [hi.1]; omega
  | ⟨1, _⟩ => show win0_4.index t 1 * 8 + 1 * j.val = j.val; rw [hi.2]; omega

theorem paramBlk5_apply (c : Dev nD) (t : Fin cfg0.N) (i : Fin 8) (j : Fin 512) :
    (iblk m c 5 t : Vec Ideal S8x512 .f32) (ix2 i j) = (V m c main_v3 : S8x512.Idx → EReal) (ix2 i j) := by
  have hi := idxP5 t
  unfold iblk
  rw [View.read_apply]
  show (V m c main_v3 : S8x512.Idx → EReal) _ = _
  congr 1
  funext a
  apply Fin.ext
  match a with
  | ⟨0, _⟩ => show win0_5.index t 0 * 8 + 1 * i.val = i.val; rw [hi.1]; omega
  | ⟨1, _⟩ => show win0_5.index t 1 * 512 + 1 * j.val = j.val; rw [hi.2]; omega

theorem paramBlk6_apply (c : Dev nD) (t : Fin cfg0.N) (i : Fin 1) (j : Fin 512) :
    (iblk m c 6 t : Vec Ideal S1x512 .f32) (ix2 i j) = (V m c main_v7 : S1x512.Idx → EReal) (ix2 i j) := by
  have hi := idxP6 t
  unfold iblk
  rw [View.read_apply]
  show (V m c main_v7 : S1x512.Idx → EReal) _ = _
  congr 1
  funext a
  apply Fin.ext
  match a with
  | ⟨0, _⟩ => show win0_6.index t 0 * 1 + 1 * i.val = i.val; rw [hi.1]; omega
  | ⟨1, _⟩ => show win0_6.index t 1 * 512 + 1 * j.val = j.val; rw [hi.2]; omega

theorem paramBlk7_apply (c : Dev nD) (t : Fin cfg0.N) (i : Fin 512) (j : Fin 8) :
    (iblk m c 7 t : Vec Ideal S512x8 .f32) (ix2 i j) = (V m c main_v4 : S512x8.Idx → EReal) (ix2 i j) := by
  have hi := idxP7 t
  unfold iblk
  rw [View.read_apply]
  show (V m c main_v4 : S512x8.Idx → EReal) _ = _
  congr 1
  funext a
  apply Fin.ext
  match a with
  | ⟨0, _⟩ => show win0_7.index t 0 * 512 + 1 * i.val = i.val; rw [hi.1]; omega
  | ⟨1, _⟩ => show win0_7.index t 1 * 8 + 1 * j.val = j.val; rw [hi.2]; omega

theorem paramBlk8_apply (c : Dev nD) (t : Fin cfg0.N) (i : Fin 1) (j : Fin 8) :
    (iblk m c 8 t : Vec Ideal S1x8 .f32) (ix2 i j) = (V m c main_v8 : S1x8.Idx → EReal) (ix2 i j) := by
  have hi := idxP8 t
  unfold iblk
  rw [View.read_apply]
  show (V m c main_v8 : S1x8.Idx → EReal) _ = _
  congr 1
  funext a
  apply Fin.ext
  match a with
  | ⟨0, _⟩ => show win0_8.index t 0 * 1 + 1 * i.val = i.val; rw [hi.1]; omega
  | ⟨1, _⟩ => show win0_8.index t 1 * 8 + 1 * j.val = j.val; rw [hi.2]; omega

theorem paramBlk9_apply (c : Dev nD) (t : Fin cfg0.N) (i : Fin 1) (j : Fin 8) :
    (iblk m c 9 t : Vec Ideal S1x8 .f32) (ix2 i j) = (V m c main_v9 : S1x8.Idx → EReal) (ix2 i j) := by
  have hi := idxP9 t
  unfold iblk
  rw [View.read_apply]
  show (V m c main_v9 : S1x8.Idx → EReal) _ = _
  congr 1
  funext a
  apply Fin.ext
  match a with
  | ⟨0, _⟩ => show win0_9.index t 0 * 1 + 1 * i.val = i.val; rw [hi.1]; omega
  | ⟨1, _⟩ => show win0_9.index t 1 * 8 + 1 * j.val = j.val; rw [hi.2]; omega

theorem paramBlk10_apply (c : Dev nD) (t : Fin cfg0.N) (i : Fin 1) (j : Fin 8) :
    (iblk m c 10 t : Vec Ideal S1x8 .f32) (ix2 i j) = (V m c main_v10 : S1x8.Idx → EReal) (ix2 i j) := by
  have hi := idxP10 t
  unfold iblk
  rw [View.read_apply]
  show (V m c main_v10 : S1x8.Idx → EReal) _ = _
  congr 1
  funext a
  apply Fin.ext
  match a with
  | ⟨0, _⟩ => show win0_10.index t 0 * 1 + 1 * i.val = i.val; rw [hi.1]; omega
  | ⟨1, _⟩ => show win0_10.index t 1 * 8 + 1 * j.val = j.val; rw [hi.2]; omega

theorem paramBlk11_apply (c : Dev nD) (t : Fin cfg0.N) (i : Fin 1) (j : Fin 8) :
    (iblk m c 11 t : Vec Ideal S1x8 .f32) (ix2 i j) = (V m c main_v11 : S1x8.Idx → EReal) (ix2 i j) := by
  have hi := idxP11 t
  unfold iblk
  rw [View.read_apply]
  show (V m c main_v11 : S1x8.Idx → EReal) _ = _
  congr 1
  funext a
  apply Fin.ext
  match a with
  | ⟨0, _⟩ => show win0_11.index t 0 * 1 + 1 * i.val = i.val; rw [hi.1]; omega
  | ⟨1, _⟩ => show win0_11.index t 1 * 8 + 1 * j.val = j.val; rw [hi.2]; omega

theorem paramBlk12_apply (c : Dev nD) (t : Fin cfg0.N) (i : Fin 1) (j : Fin 8) :
    (iblk m c 12 t : Vec Ideal S1x8 .f32) (ix2 i j) = (V m c main_v12 : S1x8.Idx → EReal) (ix2 i j) := by
  have hi := idxP12 t
  unfold iblk
  rw [View.read_apply]
  show (V m c main_v12 : S1x8.Idx → EReal) _ = _
  congr 1
  funext a
  apply Fin.ext
  match a with
  | ⟨0, _⟩ => show win0_12.index t 0 * 1 + 1 * i.val = i.val; rw [hi.1]; omega
  | ⟨1, _⟩ => show win0_12.index t 1 * 8 + 1 * j.val = j.val; rw [hi.2]; omega

/-! ## What a point writes back, and the array after the run -/

/-- WHAT POINT `t` WRITES BACK is block `t` of the result function. -/
theorem flushed_eq (c : Dev nD) (t : Fin cfg0.N) :
    (dats m 0 c).flushed 13 t = ((cfg0.win 13).blk t).view.read (Elt Ideal) (resultArr m c) := by
  show (cfg0.win 13).cut (grid0.coords t) ((dats m 0 c).after 13 t) = _
  rw [after0_13]
  unfold out0_13
  rw [View.canon_unit_zero hz]
  simp only [View.ld_unit_zero (S := S2048x8) hz, View.ld_unit_zero (S := S8x8) hz, View.ld_unit_zero (S := S1x8) hz,
    View.ld_unit_zero (S := S8x512) hz, View.ld_unit_zero (S := S1x512) hz, View.ld_unit_zero (S := S512x8) hz]
  funext y
  obtain ⟨p, q, rfl⟩ : ∃ (p : Fin 2048) (q : Fin 8), y = ix2 p q := ⟨y 0, y 1, eq_ix2 y⟩
  have ht : t.val < 64 := by have h := t.isLt; have e : cfg0.N = 64 := N_0; omega
  have hp := p.isLt
  refine (stored_entry (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) p q).trans ?_
  have e0 : ∀ e : Fin 8, (iblk m c 0 t : Vec Ideal S2048x8 .f32) (ix2 p e)
      = (V m c main_v0 : S131072x8.Idx → EReal) (ix2 (⟨t.val * 2048 + p.val, by omega⟩ : Fin 131072) e) :=
    fun e => tokenBlk_apply m c t p e _ rfl
  simp only [e0, paramBlk1_apply, paramBlk2_apply, paramBlk3_apply, paramBlk4_apply, paramBlk5_apply, paramBlk6_apply, paramBlk7_apply, paramBlk8_apply, paramBlk9_apply, paramBlk10_apply, paramBlk11_apply, paramBlk12_apply]
  rw [View.read_apply]
  show _ = resultArr m c (((cfg0.win 13).blk t).view.emb (ix2 p q))
  have hi := idxOut t
  have h0 : ((((cfg0.win 13).blk t).view.emb (ix2 p q)) 0).val = t.val * 2048 + p.val := by
    show win0_13.index t 0 * 2048 + 1 * p.val = _
    rw [hi.1]; omega
  have h1 : ((((cfg0.win 13).blk t).view.emb (ix2 p q)) 1).val = q.val := by
    show win0_13.index t 1 * 8 + 1 * q.val = _
    rw [hi.2]; omega
  show rowResult m c ⟨t.val * 2048 + p.val, by omega⟩ q = rowResult m c ⟨_, _⟩ ⟨_, _⟩
  exact congrArg₂ (rowResult m c) (Fin.ext h0.symm) (Fin.ext h1.symm)

/-- THE RESULT ARRAY after the run: the 64 blocks tile it, so it holds the result function. -/
theorem final (c : Dev nD) : (dats m 0 c).arrAt 13 cfg0.N = resultArr m c :=
  (dats m 0 c).arrAt_eq_of_cover 13 (resultArr m c) (fun t _ => flushed_eq m c t) fun i => by
    have hi0 : (i 0).val < 131072 := (i 0).isLt
    have hi1 : (i 1).val < 8 := (i 1).isLt
    have hN : cfg0.N = 64 := N_0
    let t : Fin cfg0.N := ⟨(i 0).val / 2048, by rw [hN]; omega⟩
    refine ⟨t, flush0_13 t, ?_⟩
    show i ∈ ((View.whole main_v13).slice (win0_13.rect t)).set
    rw [View.set_slice_whole, Rect.mem_set_unit]
    have hi := idxOut t
    intro a
    match a with
    | ⟨0, _⟩ =>
      show win0_13.index t 0 * 2048 ≤ (i 0).val ∧ (i 0).val < win0_13.index t 0 * 2048 + 2048
      rw [hi.1]
      show (i 0).val / 2048 * 2048 ≤ (i 0).val ∧ (i 0).val < (i 0).val / 2048 * 2048 + 2048
      omega
    | ⟨1, _⟩ =>
      show win0_13.index t 1 * 8 ≤ (i 1).val ∧ (i 1).val < win0_13.index t 1 * 8 + 8
      rw [hi.2]
      omega

end Cert.KernelBlocks

end
-- ==== Proof.KernelHost.lean ====
/-
  The host side of the kernel program, read at an index.

  Before the kernel runs, the program lays its arguments out for the kernel's windows: the token array
  x : f32[32,4096,8] is flattened to [131072,8] (token (b, s) becomes row b · 4096 + s), the four matrices are
  transposed, and each vector of length n becomes a [1,n] row. After the kernel, its [131072,8] result is folded
  back to [32,4096,8]. Each of these is a relabelling of entries: a flattening or folding keeps the row-major
  position, a transposition swaps the two coordinates, a row keeps the one coordinate. The lemmas below say, for
  each array a window reads and for the final result, which entry of which argument stands at a given index.
-/
import proofs.«171394_j65481071400382_1_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic
noncomputable section
namespace Cert.KernelHost
open Idealize.ShloMosaic Idealize.ShloMosaic.TcCoe Idealize.ShloMosaic.ValueIdx Idealize.SL.Sem Cert.KernelIdeal Cert.KernelIdeal.Gen
variable (m : (ℓ : Loc nD τ sig) → Buf (Elt Ideal) ℓ) (c : Dev nD)

/-! ## The arrays the windows read, whole -/

/-- The flattened token array is the token array cast to `[131072, 8]`. -/
private theorem tokens_eq :
    (V m c main_v0 : S131072x8.Idx → EReal)
      = shapeCast S131072x8 (m ((c : Thread nD τ).loc main_arg0) : S32x4096x8.Idx → EReal) shapeCasts_S32x4096x8_S131072x8 := by
  show StableHlo.after hostOps0 (fun b => m (c, b)) (Proc.devRef .tc main_v0) = _
  after_results
  rfl

/-- The input projection as the kernel reads it is the argument transposed. -/
private theorem win_eq :
    (V m c main_v1 : S8x8.Idx → EReal)
      = transpose S8x8 [1, 0] (m ((c : Thread nD τ).loc main_arg1) : S8x8.Idx → EReal) transposes_S8x8_S8x8_1_0 := by
  show StableHlo.after hostOps0 (fun b => m (c, b)) (Proc.devRef .tc main_v1) = _
  after_results

/-- The output projection as the kernel reads it is the argument transposed. -/
private theorem wout_eq :
    (V m c main_v2 : S8x8.Idx → EReal)
      = transpose S8x8 [1, 0] (m ((c : Thread nD τ).loc main_arg3) : S8x8.Idx → EReal) transposes_S8x8_S8x8_1_0 := by
  show StableHlo.after hostOps0 (fun b => m (c, b)) (Proc.devRef .tc main_v2) = _
  after_results

/-- The first feed-forward matrix as the kernel reads it is the argument transposed. -/
private theorem w1_eq :
    (V m c main_v3 : S8x512.Idx → EReal)
      = transpose S8x512 [1, 0] (m ((c : Thread nD τ).loc main_arg5) : S512x8.Idx → EReal) transposes_S512x8_S8x512_1_0 := by
  show StableHlo.after hostOps0 (fun b => m (c, b)) (Proc.devRef .tc main_v3) = _
  after_results

/-- The second feed-forward matrix as the kernel reads it is the argument transposed. -/
private theorem w2_eq :
    (V m c main_v4 : S512x8.Idx → EReal)
      = transpose S512x8 [1, 0] (m ((c : Thread nD τ).loc main_arg7) : S8x512.Idx → EReal) transposes_S8x512_S512x8_1_0 := by
  show StableHlo.after hostOps0 (fun b => m (c, b)) (Proc.devRef .tc main_v4) = _
  after_results

/-- The attention phase as the kernel reads it is the argument as a one-row matrix. -/
private theorem thetaA_eq :
    (V m c main_v5 : S1x8.Idx → EReal)
      = shapeCast S1x8 (m ((c : Thread nD τ).loc main_arg2) : S8.Idx → EReal) shapeCasts_S8_S1x8 := by
  show StableHlo.after hostOps0 (fun b => m (c, b)) (Proc.devRef .tc main_v5) = _
  after_results
  rfl

/-- The feed-forward phase as the kernel reads it is the argument as a one-row matrix. -/
private theorem thetaF_eq :
    (V m c main_v6 : S1x8.Idx → EReal)
      = shapeCast S1x8 (m ((c : Thread nD τ).loc main_arg4) : S8.Idx → EReal) shapeCasts_S8_S1x8 := by
  show StableHlo.after hostOps0 (fun b => m (c, b)) (Proc.devRef .tc main_v6) = _
  after_results
  rfl

/-- The first bias as the kernel reads it is the argument as a one-row matrix. -/
private theorem b1_eq :
    (V m c main_v7 : S1x512.Idx → EReal)
      = shapeCast S1x512 (m ((c : Thread nD τ).loc main_arg6) : S512.Idx → EReal) shapeCasts_S512_S1x512 := by
  show StableHlo.after hostOps0 (fun b => m (c, b)) (Proc.devRef .tc main_v7) = _
  after_results
  rfl

/-- The second bias as the kernel reads it is the argument as a one-row matrix. -/
private theorem b2_eq :
    (V m c main_v8 : S1x8.Idx → EReal)
      = shapeCast S1x8 (m ((c : Thread nD τ).loc main_arg8) : S8.Idx → EReal) shapeCasts_S8_S1x8 := by
  show StableHlo.after hostOps0 (fun b => m (c, b)) (Proc.devRef .tc main_v8) = _
  after_results
  rfl

/-- The first gain as the kernel reads it is the argument as a one-row matrix. -/
private theorem g1_eq :
    (V m c main_v9 : S1x8.Idx → EReal)
      = shapeCast S1x8 (m ((c : Thread nD τ).loc main_arg9) : S8.Idx → EReal) shapeCasts_S8_S1x8 := by
  show StableHlo.after hostOps0 (fun b => m (c, b)) (Proc.devRef .tc main_v9) = _
  after_results
  rfl

/-- The first shift as the kernel reads it is the argument as a one-row matrix. -/
private theorem beta1_eq :
    (V m c main_v10 : S1x8.Idx → EReal)
      = shapeCast S1x8 (m ((c : Thread nD τ).loc main_arg10) : S8.Idx → EReal) shapeCasts_S8_S1x8 := by
  show StableHlo.after hostOps0 (fun b => m (c, b)) (Proc.devRef .tc main_v10) = _
  after_results
  rfl

/-- The second gain as the kernel reads it is the argument as a one-row matrix. -/
private theorem g2_eq :
    (V m c main_v11 : S1x8.Idx → EReal)
      = shapeCast S1x8 (m ((c : Thread nD τ).loc main_arg11) : S8.Idx → EReal) shapeCasts_S8_S1x8 := by
  show StableHlo.after hostOps0 (fun b => m (c, b)) (Proc.devRef .tc main_v11) = _
  after_results
  rfl

/-- The second shift as the kernel reads it is the argument as a one-row matrix. -/
private theorem beta2_eq :
    (V m c main_v12 : S1x8.Idx → EReal)
      = shapeCast S1x8 (m ((c : Thread nD τ).loc main_arg12) : S8.Idx → EReal) shapeCasts_S8_S1x8 := by
  show StableHlo.after hostOps0 (fun b => m (c, b)) (Proc.devRef .tc main_v12) = _
  after_results
  rfl

/-! ## Flattening and folding the token axis, at an index -/

/-- A `[32, 4096, 8]` array flattened to `[131072, 8]` reads, at row `b · 4096 + s`, the operand at `(b, s, ·)`: the two
    indices have the same row-major position `(b · 4096 + s) · 8 + e`. -/
private theorem flatten_at (x : S32x4096x8.Idx → EReal) (h : S32x4096x8.ShapeCasts S131072x8) (b : Fin 32) (s : Fin 4096)
    (e : Fin 8) (n : Fin 131072) (hn : n.val = b.val * 4096 + s.val) :
    shapeCast S131072x8 x h (ix2 n e) = x (ix3 b s e) := by
  refine shapeCast_apply x h _ _ ?_
  rw [Shape.rowMajor_val_three, Shape.rowMajor_val_two]
  show (b.val * 4096 + s.val) * 8 + e.val = n.val * 8 + e.val
  rw [hn]

/-- A `[131072, 8]` array folded to `[32, 4096, 8]` reads, at `(b, s, ·)`, the operand at row `b · 4096 + s`. -/
private theorem fold_at (y : S131072x8.Idx → EReal) (h : S131072x8.ShapeCasts S32x4096x8) (b : Fin 32) (s : Fin 4096)
    (j : Fin 8) (n : Fin 131072) (hn : n.val = b.val * 4096 + s.val) :
    shapeCast S32x4096x8 y h (ix3 b s j) = y (ix2 n j) := by
  refine shapeCast_apply y h _ _ ?_
  rw [Shape.rowMajor_val_three, Shape.rowMajor_val_two]
  show n.val * 8 + j.val = (b.val * 4096 + s.val) * 8 + j.val
  rw [hn]

/-! ## The same arrays at an index -/

/-- Row `b · 4096 + s` of the flattened token array is token `(b, s)`: the two indices have the same row-major position. -/
theorem tokens_at (b : Fin 32) (s : Fin 4096) (e : Fin 8) (n : Fin 131072) (hn : n.val = b.val * 4096 + s.val) :
    (V m c main_v0 : S131072x8.Idx → EReal) (ix2 n e)
      = (m ((c : Thread nD τ).loc main_arg0) : S32x4096x8.Idx → EReal) (ix3 b s e) := by
  rw [tokens_eq]
  exact flatten_at _ _ b s e n hn

/-- The input projection the kernel reads, at `(e, f)`, is the argument at `(f, e)`. -/
theorem win_at (e f : Fin 8) :
    (V m c main_v1 : S8x8.Idx → EReal) (ix2 e f) = (m ((c : Thread nD τ).loc main_arg1) : S8x8.Idx → EReal) (ix2 f e) := by
  rw [win_eq]
  exact transpose_ix2_apply _ _ e f

/-- The output projection the kernel reads, at `(f, j)`, is the argument at `(j, f)`. -/
theorem wout_at (f j : Fin 8) :
    (V m c main_v2 : S8x8.Idx → EReal) (ix2 f j) = (m ((c : Thread nD τ).loc main_arg3) : S8x8.Idx → EReal) (ix2 j f) := by
  rw [wout_eq]
  exact transpose_ix2_apply _ _ f j

/-- The first feed-forward matrix the kernel reads, at `(e, k)`, is the argument at `(k, e)`. -/
theorem w1_at (e : Fin 8) (k : Fin 512) :
    (V m c main_v3 : S8x512.Idx → EReal) (ix2 e k) = (m ((c : Thread nD τ).loc main_arg5) : S512x8.Idx → EReal) (ix2 k e) := by
  rw [w1_eq]
  exact transpose_ix2_apply _ _ e k

/-- The second feed-forward matrix the kernel reads, at `(k, j)`, is the argument at `(j, k)`. -/
theorem w2_at (k : Fin 512) (j : Fin 8) :
    (V m c main_v4 : S512x8.Idx → EReal) (ix2 k j) = (m ((c : Thread nD τ).loc main_arg7) : S8x512.Idx → EReal) (ix2 j k) := by
  rw [w2_eq]
  exact transpose_ix2_apply _ _ k j

/-- The attention phase's row, at `(0, f)`, is the argument at `f`. -/
theorem thetaA_at (f : Fin 8) :
    (V m c main_v5 : S1x8.Idx → EReal) (ix2 (0 : Fin 1) f) = (m ((c : Thread nD τ).loc main_arg2) : S8.Idx → EReal) (ix1 f) := by
  rw [thetaA_eq]
  exact shapeCast_a_1a_apply _ _ 0 f

/-- The feed-forward phase's row, at `(0, f)`, is the argument at `f`. -/
theorem thetaF_at (f : Fin 8) :
    (V m c main_v6 : S1x8.Idx → EReal) (ix2 (0 : Fin 1) f) = (m ((c : Thread nD τ).loc main_arg4) : S8.Idx → EReal) (ix1 f) := by
  rw [thetaF_eq]
  exact shapeCast_a_1a_apply _ _ 0 f

/-- The first bias's row, at `(0, k)`, is the argument at `k`. -/
theorem b1_at (k : Fin 512) :
    (V m c main_v7 : S1x512.Idx → EReal) (ix2 (0 : Fin 1) k) = (m ((c : Thread nD τ).loc main_arg6) : S512.Idx → EReal) (ix1 k) := by
  rw [b1_eq]
  exact shapeCast_a_1a_apply _ _ 0 k

/-- The second bias's row, at `(0, f)`, is the argument at `f`. -/
theorem b2_at (f : Fin 8) :
    (V m c main_v8 : S1x8.Idx → EReal) (ix2 (0 : Fin 1) f) = (m ((c : Thread nD τ).loc main_arg8) : S8.Idx → EReal) (ix1 f) := by
  rw [b2_eq]
  exact shapeCast_a_1a_apply _ _ 0 f

/-- The first gain's row, at `(0, f)`, is the argument at `f`. -/
theorem g1_at (f : Fin 8) :
    (V m c main_v9 : S1x8.Idx → EReal) (ix2 (0 : Fin 1) f) = (m ((c : Thread nD τ).loc main_arg9) : S8.Idx → EReal) (ix1 f) := by
  rw [g1_eq]
  exact shapeCast_a_1a_apply _ _ 0 f

/-- The first shift's row, at `(0, f)`, is the argument at `f`. -/
theorem beta1_at (f : Fin 8) :
    (V m c main_v10 : S1x8.Idx → EReal) (ix2 (0 : Fin 1) f) = (m ((c : Thread nD τ).loc main_arg10) : S8.Idx → EReal) (ix1 f) := by
  rw [beta1_eq]
  exact shapeCast_a_1a_apply _ _ 0 f

/-- The second gain's row, at `(0, f)`, is the argument at `f`. -/
theorem g2_at (f : Fin 8) :
    (V m c main_v11 : S1x8.Idx → EReal) (ix2 (0 : Fin 1) f) = (m ((c : Thread nD τ).loc main_arg11) : S8.Idx → EReal) (ix1 f) := by
  rw [g2_eq]
  exact shapeCast_a_1a_apply _ _ 0 f

/-- The second shift's row, at `(0, f)`, is the argument at `f`. -/
theorem beta2_at (f : Fin 8) :
    (V m c main_v12 : S1x8.Idx → EReal) (ix2 (0 : Fin 1) f) = (m ((c : Thread nD τ).loc main_arg12) : S8.Idx → EReal) (ix1 f) := by
  rw [beta2_eq]
  exact shapeCast_a_1a_apply _ _ 0 f

/-! ## The result, folded back -/

/-- The program's result is the kernel's output array folded to `[32, 4096, 8]`: the one operation after the kernel
    reads the output array as the kernel left it. -/
private theorem result_eq :
    (Pipeline.afterTail₀ cfgs (dats m) 0 (V0 m) [hostOps1] c main_v14 : S32x4096x8.Idx → EReal)
      = shapeCast S32x4096x8 ((dats m 0 c).arrAt 13 cfg0.N : S131072x8.Idx → EReal) shapeCasts_S131072x8_S32x4096x8 := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v13)
      = (dats m 0 c).arrAt 13 cfg0.N := Pipeline.withArrays_arr spec0 launch0.win.arr_inj c _ _ 13
  rw [hw]
  rfl

/-- The result at `(b, s, j)` is the kernel's output array at row `b · 4096 + s`, column `j`. -/
theorem result_at (b : Fin 32) (s : Fin 4096) (j : Fin 8) (n : Fin 131072) (hn : n.val = b.val * 4096 + s.val) :
    (Pipeline.afterTail₀ cfgs (dats m) 0 (V0 m) [hostOps1] c main_v14 : S32x4096x8.Idx → EReal) (ix3 b s j)
      = ((dats m 0 c).arrAt 13 cfg0.N : S131072x8.Idx → EReal) (ix2 n j) := by
  rw [result_eq]
  exact fold_at _ _ b s j n hn

end Cert.KernelHost
-- ==== Proof.KernelValue.lean ====
/-
  The kernel program's result, as one function of its argument arrays.

  The host lines before the pallas_call lay the arguments out for the kernel (the token array flattened to
  `131072 × 8`, the four weight matrices transposed, the eight vectors as single rows); the region leaves the
  `131072 × 8` array whose row `n` is the block function of token row `n`; the host line after it folds that array back to
  `32 × 4096 × 8`. Token `(b, s)` is row `4096 b + s`, a transposed matrix read at `(e, f)` is the matrix at `(f, e)`, and a
  single row read at `(0, j)` is the vector at `j`: so the result at `(b, s, j)` is entry `j` of the block function of
  token `(b, s)` with the parameters as given.
-/
import proofs.«171394_j65481071400382_1_alg».proof.Proof.KernelBlocks
import proofs.«171394_j65481071400382_1_alg».proof.Proof.KernelHost

noncomputable section

open Idealize.ShloMosaic Idealize.ShloMosaic.TcCoe Idealize.ShloMosaic.ValueIdx Idealize.SL.Sem

namespace Cert.KernelValue

open Cert.KernelIdeal Cert.KernelIdeal.Gen Cert.Token Cert.KernelBlocks

variable (m : (ℓ : Loc nD τ sig) → Buf (Elt Ideal) ℓ) (ρ : Dev nD → PrngReg)

/-- The block function on the kernel program's argument arrays. -/
abbrev expected (c : Dev nD) : S32x4096x8.Idx → EReal :=
  blockOut (m ((c.tc : Thread nD τ).loc main_arg0) : S32x4096x8.Idx → EReal)
      (m ((c.tc : Thread nD τ).loc main_arg1) : S8x8.Idx → EReal)
      (m ((c.tc : Thread nD τ).loc main_arg2) : S8.Idx → EReal)
      (m ((c.tc : Thread nD τ).loc main_arg3) : S8x8.Idx → EReal)
      (m ((c.tc : Thread nD τ).loc main_arg4) : S8.Idx → EReal)
      (m ((c.tc : Thread nD τ).loc main_arg5) : S512x8.Idx → EReal)
      (m ((c.tc : Thread nD τ).loc main_arg6) : S512.Idx → EReal)
      (m ((c.tc : Thread nD τ).loc main_arg7) : S8x512.Idx → EReal)
      (m ((c.tc : Thread nD τ).loc main_arg8) : S8.Idx → EReal)
      (m ((c.tc : Thread nD τ).loc main_arg9) : S8.Idx → EReal)
      (m ((c.tc : Thread nD τ).loc main_arg10) : S8.Idx → EReal)
      (m ((c.tc : Thread nD τ).loc main_arg11) : S8.Idx → EReal)
      (m ((c.tc : Thread nD τ).loc main_arg12) : S8.Idx → EReal)

/-- The array the last host line leaves is the block function of the argument arrays. -/
theorem result_eq (c : Dev nD) :
    (Pipeline.afterTail₀ cfgs (dats m) 0 (V0 m) [hostOps1] c main_v14 : S32x4096x8.Idx → EReal) = expected m c := by
  funext i
  obtain ⟨b, s, j, rfl⟩ : ∃ (b : Fin 32) (s : Fin 4096) (j : Fin 8), i = ix3 b s j := ⟨i 0, i 1, i 2, eq_ix3 i⟩
  have hb := b.isLt
  have hs := s.isLt
  rw [Cert.KernelHost.result_at m c b s j ⟨b.val * 4096 + s.val, by omega⟩ rfl, Cert.KernelBlocks.final]
  show rowResult m c ⟨b.val * 4096 + s.val, by omega⟩ j = _
  unfold rowResult
  have e0 : ∀ e : Fin 8, (V m c main_v0 : S131072x8.Idx → EReal) (ix2 (⟨b.val * 4096 + s.val, by omega⟩ : Fin 131072) e)
      = (m ((c.tc : Thread nD τ).loc main_arg0) : S32x4096x8.Idx → EReal) (ix3 b s e) := fun e => Cert.KernelHost.tokens_at m c b s e _ rfl
  simp only [e0, Cert.KernelHost.win_at m c, Cert.KernelHost.wout_at m c, Cert.KernelHost.w1_at m c, Cert.KernelHost.w2_at m c,
    Cert.KernelHost.thetaA_at m c, Cert.KernelHost.thetaF_at m c, Cert.KernelHost.b1_at m c, Cert.KernelHost.b2_at m c,
    Cert.KernelHost.g1_at m c, Cert.KernelHost.beta1_at m c, Cert.KernelHost.g2_at m c, Cert.KernelHost.beta2_at m c]
  rfl

/-- THE KERNEL PROGRAM'S RUN, read: every weakly fair execution ends with the result array at the block function of the
    argument arrays, the arguments unchanged. -/
theorem run : θ_run defs (onTc (τ := τ) (main (F := Ideal))) ⟨m, fun _ => 0, ρ⟩ fun r => ∀ c : Dev nD,
      r.2.mem ((c.tc : Thread nD τ).loc main_v14) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v14 (Pipeline.mem_restRefs_of main_v14 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelValue

end
-- ==== Proof.lean ====
/-
  The certificate: a Pallas kernel for one transformer block on `x : f32[32, 4096, 8]` against its jnp reference, equal
  as extended reals.

  Both programs apply ONE function to every token (a row of eight numbers) independently — an attention step
  `x + cos (x · Winᵀ + θa) · Woutᵀ`, a layer normalisation over the eight entries, a feed-forward step
  `h + max ((cos h · cos θf) · W1ᵀ + b1) 0 · W2ᵀ + b2`, and a second layer normalisation (`Cert.Token.token`). The kernel
  works on blocks of 2048 tokens with the weights transposed on the host beforehand and its matrix products taken in a
  narrower float format; the reference works on the whole array with `dot_general`. On the extended reals a change of
  float format is the identity, a product into a zero accumulator and the host's `dot_general` are the same sum over
  the contracted axis, a lane sum and the host's `reduce` are the same sum over the row, and the cosine, the
  reciprocal square root and the division are one function on either side; so both result arrays are
  `Cert.Token.blockOut` of the arguments (`Cert.KernelValue.run`, `Cert.RefToken.result_eq`), and no finiteness of the
  inputs is used.

  The three frames: the kernel programs' are the generated frame runs; the reference has no kernel and its frame is its
  run with the result dropped. The idealisation rewrote nothing, so `preserves` is `True`.
-/
import proofs.«171394_j65481071400382_1_alg».proof.Defs
import proofs.«171394_j65481071400382_1_alg».proof.Proof.Gen.Kernel
import proofs.«171394_j65481071400382_1_alg».proof.Proof.Gen.Kernel.Skeleton
import proofs.«171394_j65481071400382_1_alg».proof.Proof.Gen.Kernel.Launch
import proofs.«171394_j65481071400382_1_alg».proof.Proof.Gen.Kernel.Points
import proofs.«171394_j65481071400382_1_alg».proof.Proof.Gen.Kernel.Frame
import proofs.«171394_j65481071400382_1_alg».proof.Proof.Gen.KernelIdeal
import proofs.«171394_j65481071400382_1_alg».proof.Proof.Gen.KernelIdeal.Skeleton
import proofs.«171394_j65481071400382_1_alg».proof.Proof.Gen.KernelIdeal.Launch
import proofs.«171394_j65481071400382_1_alg».proof.Proof.Gen.KernelIdeal.Points
import proofs.«171394_j65481071400382_1_alg».proof.Proof.Gen.KernelIdeal.Frame
import proofs.«171394_j65481071400382_1_alg».proof.Proof.Gen.ReferenceIdeal
import proofs.«171394_j65481071400382_1_alg».proof.Proof.Gen.Pre_finite_inputs
import proofs.«171394_j65481071400382_1_alg».proof.Proof.Gen.ReferenceIdeal.Run
import proofs.«171394_j65481071400382_1_alg».proof.Proof.Gen.ReferenceIdeal.Read
import proofs.«171394_j65481071400382_1_alg».proof.Proof.Token
import proofs.«171394_j65481071400382_1_alg».proof.Proof.RefToken
import proofs.«171394_j65481071400382_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the thirteen arguments both programs end with the result array at the block function
    of those arguments. -/
theorem algebraic : Cert.algebraic_KernelIdeal_ReferenceIdeal := by
  intro m ρ m' ρ' _ hagree
  refine ⟨fun c => Cert.KernelValue.expected m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, Cert.RefToken.result_eq]
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
